-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : IVec S2048 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Kernel.lean ====
abbrev S2048x1024 : Shape := ⟨2, ![2048, 1024]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S4x8x128 : Shape := ⟨3, ![4, 8, 128]⟩
abbrev S512x1024 : Shape := ⟨2, ![512, 1024]⟩
abbrev S512x1 : Shape := ⟨2, ![512, 1]⟩
abbrev S1x8x128 : Shape := ⟨3, ![1, 8, 128]⟩
abbrev S512x2048 : Shape := ⟨2, ![512, 2048]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S8x128 : Shape := ⟨2, ![8, 128]⟩
abbrev S4x1x1 : Shape := ⟨3, ![4, 1, 1]⟩
abbrev S4 : Shape := ⟨1, ![4]⟩

abbrev nBuf : Space → Nat
  | .hbm => 31
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2048x1, .i32⟩
  | .hbm, ⟨3, _⟩ => ⟨S1x2048, .i32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S4x8x128, .f32⟩
  | .hbm, ⟨16, _⟩ => ⟨S4x1x1, .f32⟩
  | .hbm, ⟨17, _⟩ => ⟨S4, .f32⟩
  | .hbm, ⟨18, _⟩ => ⟨S4x1x1, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x1, .i32⟩
  | .local _ .vmem, ⟨4, _⟩ => ⟨S512x1, .i32⟩
  | .local _ .vmem, ⟨5, _⟩ => ⟨S1x2048, .i32⟩
  | .local _ .vmem, ⟨6, _⟩ => ⟨S1x8x128, .f32⟩
  | .local _ .vmem, ⟨7, _⟩ => ⟨S1x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S2048x1 : S2048.ShapeCasts S2048x1
  shapeCasts_S2048_S1x2048 : S2048.ShapeCasts S1x2048
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  iota_S512x1_d0_w32 : S512x1.Iotas .tc 32 [0]
  iota_S512x2048_d1_w32 : S512x2048.Iotas .tc 32 [1]
  reduces_S512x2048_S512 : S512x2048.Reduces [1] S512
  shapeCasts_S512_S512x1 : S512.ShapeCasts S512x1
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  iota_S8x128_d0_w32 : S8x128.Iotas .tc 32 [0]
  iota_S8x128_d1_w32 : S8x128.Iotas .tc 32 [1]
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  slices_S4x8x128_S4x1x1_0_0_1 : S4x8x128.Slices ![0, 0, 1] S4x1x1
  reducesTo_S4_S_d0 : S4.ReducesTo [0] S_
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .i32 = 32 ∨ (Rect.block (s := S2048x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .i32 = 32 ∨ (Rect.block (s := S1x2048) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S1024x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x1, .i32⟩
  | .hbm, ⟨29, _⟩ => ⟨S1x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .i1⟩
  | .hbm, ⟨39, _⟩ => ⟨S2048x2048, .i1⟩
  | .hbm, ⟨40, _⟩ => ⟨S2048x2048, .i1⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x2048, .f32⟩
  | .hbm, ⟨50, _⟩ => ⟨S2048x2048, .i1⟩
  | .hbm, ⟨51, _⟩ => ⟨S2048x2048, .i1⟩
  | .hbm, ⟨52, _⟩ => ⟨S_, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S_, .i1⟩
  | .hbm, ⟨59, _⟩ => ⟨S2048, .i1⟩
  | .hbm, ⟨60, _⟩ => ⟨S_, .i1⟩
  | .hbm, ⟨61, _⟩ => ⟨S2048, .i1⟩
  | .hbm, ⟨62, _⟩ => ⟨S2048, .i1⟩
  | .hbm, ⟨63, _⟩ => ⟨S_, .i1⟩
  | .hbm, ⟨64, _⟩ => ⟨S2048, .i1⟩
  | .hbm, ⟨65, _⟩ => ⟨S2048, .i1⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S_, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S2048, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_call4_cst : Ref sig .tc := ⟨.hbm, 70, rfl⟩
abbrev main_call4_v0 : Ref sig .tc := ⟨.hbm, 71, rfl⟩
abbrev main_v44 : Ref sig .tc := ⟨.hbm, 72, rfl⟩
abbrev main_cst_12 : Ref sig .tc := ⟨.hbm, 73, rfl⟩
abbrev main_call5_v0 : Ref sig .tc := ⟨.hbm, 74, rfl⟩
abbrev main_call5_v1 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_c_14 : Ref sig .tc := ⟨.hbm, 80, rfl⟩
abbrev main_v48 : Ref sig .tc := ⟨.hbm, 81, rfl⟩
abbrev main_cst_15 : Ref sig .tc := ⟨.hbm, 82, rfl⟩
abbrev main_v49 : Ref sig .tc := ⟨.hbm, 83, rfl⟩
abbrev main_c_16 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_17 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  transposes_S2048x1024_S1024x2048_1_0 : S2048x1024.Transposes [1, 0] S1024x2048
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  reducesTo_S2048x2048_S2048_d1 : S2048x2048.ReducesTo [1] S2048
  bcast_S_S2048 : S_.BroadcastsInDim S2048 (![] : Fin 0 → Fin S2048.rank)
  natLt_1_32 : 1 < 32
  reducesTo_S2048_S_d0 : S2048.ReducesTo [0] S_
  dot_S2048x1024_S1024x2048_S2048x2048_1_0_0_1_n_n_wf : DotDims.WF S2048x1024 S1024x2048 S2048x2048 [1] [0] [0] [1] [] []

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf

class Facts : Prop extends Facts₀ where

variable [Facts]
-- ==== Proof.KBody.lean ====
/-
  The kernel body of the one pallas_call, at any grid point and any float instance: run on whole staging buffers
  holding its four input blocks, it loads them, computes, and overwrites the whole output block; the inputs' buffers
  are left as found. What it leaves in the output buffer is named `tileOut`: the printed arithmetic applied to the
  four loaded blocks at the grid point. Around it, the proof data of the pipeline at given entry contents `V` of the
  core's buffers: every input window's buffer holds its block of the array at each point (fetched there or kept from
  the point before), the output window's buffer is written back whole at each point. Two of the input windows read the
  SAME array (the whole normalized matrix, and its current block of 512 rows): they hold it at complementary half
  shares.
-/
import proofs.«424136_j60825326846556_3_alg».proof.Proof.Gen.Kernel.Launch
import proofs.«424136_j60825326846556_3_alg».proof.Proof.Gen.Kernel.Skeleton
import proofs.«424136_j60825326846556_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The output block the body stores at grid point `i`, from its four loaded blocks: the query rows `x0`, the whole
    key matrix `x1`, the rows' labels `x2` and all labels `x3`. -/
def tileOut (i : grid0.Coords) (x0 : Vec F S512x1024 .bf16) (x1 : Vec F S2048x1024 .bf16) (x2 : Vec F S512x1 .i32) (x3 : Vec F S1x2048 .i32) :
    FVec F S1x8x128 .f32 :=
  k0_pay1 (k0_pay8 (F := F) (k0_pay4 i x2 x3) (k0_pay5 x2 x3) (k0_pay7 i x0 x1 x2 x3))
    (k0_pay9 (k0_pay2 x0 x1) (k0_pay4 i x2 x3) (k0_pay5 x2 x3) (k0_pay6 i x0 x1 x2 x3) (k0_pay7 i x0 x1 x2 x3)
      (Scalar.ofBits .f32 0x7149F2CA#32))

/-! ## The body's accesses: every load and the store is of a whole buffer -/

abbrev r0 : Rect S512x1024 := Rect.unit (s := S512x1024) ![0, 0] S512x1024.size inb_S512x1024_S512x1024_0_0
abbrev r1 : Rect S2048x1024 := Rect.unit (s := S2048x1024) ![0, 0] S2048x1024.size inb_S2048x1024_S2048x1024_0_0
abbrev r2 : Rect S512x1 := Rect.unit (s := S512x1) ![0, 0] S512x1.size inb_S512x1_S512x1_0_0
abbrev r3 : Rect S1x2048 := Rect.unit (s := S1x2048) ![0, 0] S1x2048.size inb_S1x2048_S1x2048_0_0
abbrev r4 : Rect S1x8x128 := Rect.unit (s := S1x8x128) ![0, 0, 0] S1x8x128.size inb_S1x8x128_S1x8x128_0_0_0

/-- The output buffer after the body: its one store, of the whole block. -/
def out4 (i : grid0.Coords) (x0 : Vec F S512x1024 .bf16) (x1 : Vec F S2048x1024 .bf16) (x2 : Vec F S512x1 .i32) (x3 : Vec F S1x2048 .i32) :
    Vec F S1x8x128 .f32 :=
  View.canon [⟨r4, tileOut i (View.ld x0 r0) (View.ld x1 r1) (View.ld x2 r2) (View.ld x3 r3)⟩]

/-- The one store covers the buffer. -/
theorem cover4 (p0 : Vec F S1x8x128 .f32) (y : S1x8x128.Idx) :
    ∃ pc ∈ ([⟨r4, p0⟩] : List (View.Piece (Elt F) S1x8x128 .f32)), y ∈ pc.1.set :=
  View.cover_of_tiled [⟨r4, p0⟩] S1x8x128.size (by rfl) y

/-! ## The body's triple -/

set_option maxHeartbeats 4000000 in
/-- The body on whole staging memrefs, the four inputs' at read contents `xW` and the output's at anything, runs to
    the continuation holding the inputs' as they were and the output's at `out4` of them. -/
theorem sound_kernel (c : Dev nD) (E : Set ℕ) (i : grid0.Coords)
    (arg1 : Memref sig .tc .vmem S512x1024 .bf16) (harg1 : arg1.IsWhole) (arg2 : Memref sig .tc .vmem S2048x1024 .bf16) (harg2 : arg2.IsWhole)
    (arg3 : Memref sig .tc .vmem S512x1 .i32) (harg3 : arg3.IsWhole) (arg4 : Memref sig .tc .vmem S1x2048 .i32) (harg4 : arg4.IsWhole)
    (arg5 : Memref sig .tc .vmem S1x8x128 .f32) (harg5 : arg5.IsWhole)
    (x0 : Vec F S512x1024 .bf16) (x1 : Vec F S2048x1024 .bf16) (x2 : Vec F S512x1 .i32) (x3 : Vec F S1x2048 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3)) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover4 _)).trans ?_
  unfold out4 tileOut
  sl_unfold_words
  rfl

end Cert.Kernel.Fr

end
-- ==== Proof.KFrame.lean ====
/-
  The proof data of the one pipeline at given entry contents `V` of the core's buffers, and the body obligation at
  every grid point. Each input window's current staging buffer holds that window's block of its array at the point —
  fetched there, or (the two resident windows, fetched at the first point only) kept from the point before, the block
  index not having moved; the output window's buffer is left at `out4` of the four input blocks and written back.
  The whole normalized matrix is read through two windows (its current 512 rows, and all of it): they hold the one
  array at the two complementary half shares.
-/
import proofs.«424136_j60825326846556_3_alg».proof.Proof.KBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's
    buffer at its block and the output's at `out4` of the input blocks; the invariant the scoped rest and the
    generator register, untouched; nothing owed; the shared array's two windows at complementary halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = out4 (grid0.coords t) (iblk V c 0 t) (iblk V c 1 t) (iblk V c 2 t) (iblk V c 3 t) := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-! ## One array behind two windows

The five windows stand on four buffers: the normalized matrix (windows 0 and 1), the labels as a column (window 2)
and as a row (window 3), and the result (window 4). Entering the region, the four buffers, each whole at the full
share, make the pipeline's arrays: the matrix's full share is cut into its two halves, one for each of its windows;
leaving it, the two halves — both still at the entry contents, an input window never writing its array — are joined
back. -/

/-- The distinct buffers behind the five windows' arrays. -/
theorem arr_image : Finset.univ.image (Pipeline.arrRef spec0) = ({main_v10, main_v0, main_v1, main_v11} : Finset (Ref sig .tc)) := by decide

/-- The four buffers, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v10) ↦{fullShare} V main_v10) ∗ (((c.tc : Thread nD τ).loc main_v0) ↦{fullShare} V main_v0)
          ∗ (((c.tc : Thread nD τ).loc main_v1) ↦{fullShare} V main_v1) ∗ (((c.tc : Thread nD τ).loc main_v11) ↦{fullShare} V main_v11)) := by
  unfold Pipeline.arrBufs
  rw [arr_image, bigSep_insert (by decide), bigSep_insert (by decide), bigSep_insert (by decide), bigSep_singleton]
  rfl

section Share

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 in
theorem share_0 : dat.share 0 = fullShare.left := by unfold Dat.share; rw [← hq0]; rfl
include hq1 in
theorem share_1 : dat.share 1 = fullShare.right := by unfold Dat.share; rw [← hq1]; rfl
include hq2 in
theorem share_2 : dat.share 2 = fullShare := by unfold Dat.share; rw [← hq2]; rfl
include hq3 in
theorem share_3 : dat.share 3 = fullShare := by unfold Dat.share; rw [← hq3]; rfl
theorem share_4 : dat.share 4 = fullShare := by unfold Dat.share; rfl

include hq0 hq1 hq2 hq3 in
/-- ENTRY: the four buffers at contents `V` make the five arrays at `G`, which reads `V` window by window. -/
theorem arrays_of_arrBufs (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊢ dat.arrays G := by
  unfold Dat.arrays
  rw [arrBufs_eq, bigSep_W0,
    share_0 dat hq0, share_1 dat hq1, share_2 dat hq2, share_3 dat hq3, share_4 dat, hG 0, hG 1, hG 2, hG 3, hG 4,
    (arr_whole0 0).set_eq_univ, (arr_whole0 2).set_eq_univ, (arr_whole0 3).set_eq_univ, (arr_whole0 4).set_eq_univ]
  iintro ⟨H10, H0, H1, H11⟩
  icases (pointsTo_share (PosShare.mem_left_op_right fullShare)).1 $$ H10 with ⟨HL, HR⟩
  isplitl [HL]; · iexact HL
  isplitl [HR]; · iexact HR
  isplitl [H0]; · iexact H0
  isplitl [H1]; · iexact H1
  iexact H11

include hq0 hq1 hq2 hq3 in
/-- EXIT: the five arrays at `G`, which reads `V'` window by window, make the four buffers at `V'`. -/
theorem arrBufs_of_arrays (V' : (b : Ref sig .tc) → Buf (Elt F) ((c.tc : Thread nD τ).loc b))
    (G : (w : Fin cfg0.W) → Buf (Elt F) ((cfg0.win w).arr.view.loc (c.tc : Thread nD τ)))
    (hG : ∀ w, G w = V' (Pipeline.arrRef spec0 w)) :
    dat.arrays G ⊢ (Pipeline.arrBufs spec0 c V' : sProp 𝕄) := by
  unfold Dat.arrays
  rw [arrBufs_eq, bigSep_W0,
    share_0 dat hq0, share_1 dat hq1, share_2 dat hq2, share_3 dat hq3, share_4 dat, hG 0, hG 1, hG 2, hG 3, hG 4,
    (arr_whole0 0).set_eq_univ, (arr_whole0 2).set_eq_univ, (arr_whole0 3).set_eq_univ, (arr_whole0 4).set_eq_univ]
  iintro ⟨HL, HR, H0, H1, H11⟩
  isplitl [HL HR]
  · iapply (pointsTo_share (PosShare.mem_left_op_right fullShare)).2
    isplitl [HL]; · iexact HL
    iexact HR
  isplitl [H0]; · iexact H0
  isplitl [H1]; · iexact H1
  iexact H11

end Share

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the result array at what its write-backs leave, every other buffer as entered. -/
def W2 (c : Dev nD) : Valuation τ sig (Elt F) :=
  Function.update (W1 m ρ c) (Proc.devRef .tc main_v11) ((dat0 (V1 m ρ) c).arrAt 4 cfg0.N)
theorem W2_out (c : Dev nD) : W2 m ρ c (Proc.devRef .tc main_v11) = (dat0 (V1 m ρ) c).arrAt 4 cfg0.N := by
  unfold W2; exact Function.update_self _ _ _
theorem W2_of_ne (c : Dev nD) (b : Ref sig .tc) (hb : b ≠ main_v11) : W2 m ρ c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ c b
/-- At the exit each array holds what the pipeline leaves — an input its entry contents, the result its write-backs — -/
theorem hF (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq (V1 m ρ) c 0)).trans (W2_of_ne m ρ c main_v10 (by decide)).symm
  | ⟨1, _⟩ => (((dat0 (V1 m ρ) c).arrAt_in 1 rfl _).trans (A_eq (V1 m ρ) c 1)).trans (W2_of_ne m ρ c main_v10 (by decide)).symm
  | ⟨2, _⟩ => (((dat0 (V1 m ρ) c).arrAt_in 2 rfl _).trans (A_eq (V1 m ρ) c 2)).trans (W2_of_ne m ρ c main_v0 (by decide)).symm
  | ⟨3, _⟩ => (((dat0 (V1 m ρ) c).arrAt_in 3 rfl _).trans (A_eq (V1 m ρ) c 3)).trans (W2_of_ne m ρ c main_v1 (by decide)).symm
  | ⟨4, _⟩ => (W2_out m ρ c).symm
/-- and every buffer that is no window's array what it held at entry. -/
theorem hrest (c : Dev nD) : ∀ b, b ∉ Finset.univ.image (Pipeline.arrRef spec0) → V2 m ρ c b = V1 m ρ c b :=
  fun b hb => W2_of_ne m ρ c b fun e => hb (e ▸ Finset.mem_image.mpr ⟨4, Finset.mem_univ _, rfl⟩)

/-- After the host operations that follow the region, -/
abbrev W3 : Dev nD → Valuation τ sig (Elt F) := fun c => StableHlo.after hostOps1 (W2 m ρ c)
/-- and after the final selection: the contents at the return. -/
abbrev W4 : Dev nD → Valuation τ sig (Elt F) := fun c => StableHlo.after hostOps1_1 (W3 m ρ c)

/-! ### The arguments end as launched: no host operation writes one and the region reads them only -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_1, List.Forall, StableHlo.TRef.ternary, StableHlo.TRef.of, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.Forall, StableHlo.TRef.ternary, StableHlo.TRef.of, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

/-! ## The region's entry and exit: the arrays out of the core's unscoped buffers, and back -/

theorem entry_split (c : Dev nD) :
    (unscopedBufs (Ix := Unit) (Name := ℕ) (U := UR sig nD τ) (Lvl := ℕ) c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_arrBufs (dat0 (V1 m ρ) c) (by dsimp only [dat0]) (by dsimp only [dat0]) (by dsimp only [dat0]) (by dsimp only [dat0])
    (V1 m ρ c) _ (fun w => A_eq (V1 m ρ) c w)) .rfl

theorem exit_join (c : Dev nD) :
    iprop((dat0 (V1 m ρ) c).arrays ((dat0 (V1 m ρ) c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (dat0 (V1 m ρ) c) (by dsimp only [dat0]) (by dsimp only [dat0]) (by dsimp only [dat0]) (by dsimp only [dat0])
    (V2 m ρ c) _ (hF m ρ c)) (Entails.of_eq ?_)
  unfold Pipeline.unscopedRest
  exact bigSep_congr fun b hb => by rw [hrest m ρ c b (Finset.mem_sdiff.mp hb).2]

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the generator register at some state. -/
abbrev Tₙ (c : Dev nD) : sProp 𝕄 := iprop(StableHlo.held (c : Thread nD τ) (Pipeline.ucRefs τ sig) (W4 m ρ c) ∗ ∃ r, prngReg c r)

/-- The last host stretch's thread state regrouped: the buffers and the generator register apart from the dues. -/
theorem last_post (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The region as a segment -/

set_option backward.isDefEq.respectTransparency.types false in
/-- The region over the thread state: entered from every unscoped buffer at `W1`, left at `W2`. Its arrays split out
    of the unscoped buffers (the shared matrix cut into halves) and put back at the exit contents; the generator register
    into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's four segments in order: the host stretch before the region, the region, the host stretch after it, the
    final selection. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and every final state has each unscoped buffer of each core at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution of @main terminates, nothing faulting, with both argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c), (h c _ (mem_uc main_arg1 (by decide))).trans (W4_main_arg1 m ρ c)⟩)
    (run_all m ρ)

end Cert.Kernel.Fr

end
-- ==== Proof.KIBody.lean ====
/-
  The kernel body of the one pallas_call, at any grid point and any float instance: run on whole staging buffers
  holding its four input blocks, it loads them, computes, and overwrites the whole output block; the inputs' buffers
  are left as found. What it leaves in the output buffer is named `tileOut`: the printed arithmetic applied to the
  four loaded blocks at the grid point. Around it, the proof data of the pipeline at given entry contents `V` of the
  core's buffers: every input window's buffer holds its block of the array at each point (fetched there or kept from
  the point before), the output window's buffer is written back whole at each point. Two of the input windows read the
  SAME array (the whole normalized matrix, and its current block of 512 rows): they hold it at complementary half
  shares.
-/
import proofs.«424136_j60825326846556_3_alg».proof.Proof.Gen.KernelIdeal.Launch
import proofs.«424136_j60825326846556_3_alg».proof.Proof.Gen.KernelIdeal.Skeleton
import proofs.«424136_j60825326846556_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body stores -/

/-- The output block the body stores at grid point `i`, from its four loaded blocks: the query rows `x0`, the whole
    key matrix `x1`, the rows' labels `x2` and all labels `x3`. -/
def tileOut (i : grid0.Coords) (x0 : Vec F S512x1024 .bf16) (x1 : Vec F S2048x1024 .bf16) (x2 : Vec F S512x1 .i32) (x3 : Vec F S1x2048 .i32) :
    FVec F S1x8x128 .f32 :=
  k0_pay1 (k0_pay8 (F := F) (k0_pay4 i x2 x3) (k0_pay5 x2 x3) (k0_pay7 i x0 x1 x2 x3))
    (k0_pay9 (k0_pay2 x0 x1) (k0_pay4 i x2 x3) (k0_pay5 x2 x3) (k0_pay6 i x0 x1 x2 x3) (k0_pay7 i x0 x1 x2 x3)
      (Named.named κ "pos_big" 0x7149F2CA#32))

/-! ## The body's accesses: every load and the store is of a whole buffer -/

abbrev r0 : Rect S512x1024 := Rect.unit (s := S512x1024) ![0, 0] S512x1024.size inb_S512x1024_S512x1024_0_0
abbrev r1 : Rect S2048x1024 := Rect.unit (s := S2048x1024) ![0, 0] S2048x1024.size inb_S2048x1024_S2048x1024_0_0
abbrev r2 : Rect S512x1 := Rect.unit (s := S512x1) ![0, 0] S512x1.size inb_S512x1_S512x1_0_0
abbrev r3 : Rect S1x2048 := Rect.unit (s := S1x2048) ![0, 0] S1x2048.size inb_S1x2048_S1x2048_0_0
abbrev r4 : Rect S1x8x128 := Rect.unit (s := S1x8x128) ![0, 0, 0] S1x8x128.size inb_S1x8x128_S1x8x128_0_0_0

/-- The output buffer after the body: its one store, of the whole block. -/
def out4 (i : grid0.Coords) (x0 : Vec F S512x1024 .bf16) (x1 : Vec F S2048x1024 .bf16) (x2 : Vec F S512x1 .i32) (x3 : Vec F S1x2048 .i32) :
    Vec F S1x8x128 .f32 :=
  View.canon [⟨r4, tileOut i (View.ld x0 r0) (View.ld x1 r1) (View.ld x2 r2) (View.ld x3 r3)⟩]

/-- The one store covers the buffer. -/
theorem cover4 (p0 : Vec F S1x8x128 .f32) (y : S1x8x128.Idx) :
    ∃ pc ∈ ([⟨r4, p0⟩] : List (View.Piece (Elt F) S1x8x128 .f32)), y ∈ pc.1.set :=
  View.cover_of_tiled [⟨r4, p0⟩] S1x8x128.size (by rfl) y

/-! ## The body's triple -/

set_option maxHeartbeats 4000000 in
/-- The body on whole staging memrefs, the four inputs' at read contents `xW` and the output's at anything, runs to
    the continuation holding the inputs' as they were and the output's at `out4` of them. -/
theorem sound_kernel (c : Dev nD) (E : Set ℕ) (i : grid0.Coords)
    (arg1 : Memref sig .tc .vmem S512x1024 .bf16) (harg1 : arg1.IsWhole) (arg2 : Memref sig .tc .vmem S2048x1024 .bf16) (harg2 : arg2.IsWhole)
    (arg3 : Memref sig .tc .vmem S512x1 .i32) (harg3 : arg3.IsWhole) (arg4 : Memref sig .tc .vmem S1x2048 .i32) (harg4 : arg4.IsWhole)
    (arg5 : Memref sig .tc .vmem S1x8x128 .f32) (harg5 : arg5.IsWhole)
    (x0 : Vec F S512x1024 .bf16) (x1 : Vec F S2048x1024 .bf16) (x2 : Vec F S512x1 .i32) (x3 : Vec F S1x2048 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3)) -∗ K ⟨⟩))
      ⊢ wp frame (wpE (defs₀ (F := F)) Variants.none c none) E (cc0__triplet_kernel i arg1 harg1 arg2 harg2 arg3 harg3 arg4 harg4 arg5 harg5) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover4 _)).trans ?_
  unfold out4 tileOut
  sl_unfold_words
  rfl

end Cert.KernelIdeal.Fr

end
-- ==== Proof.KIFrame.lean ====
/-
  The proof data of the one pipeline at given entry contents `V` of the core's buffers, and the body obligation at
  every grid point. Each input window's current staging buffer holds that window's block of its array at the point —
  fetched there, or (the two resident windows, fetched at the first point only) kept from the point before, the block
  index not having moved; the output window's buffer is left at `out4` of the four input blocks and written back.
  The whole normalized matrix is read through two windows (its current 512 rows, and all of it): they hold the one
  array at the two complementary half shares.
-/
import proofs.«424136_j60825326846556_3_alg».proof.Proof.KIBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data on core `c`: the arrays as the region finds them; after the body at point `t` each input's
    buffer at its block and the output's at `out4` of the input blocks; the invariant the scoped rest and the
    generator register, untouched; nothing owed; the shared array's two windows at complementary halves. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => out4 (grid0.coords t) (iblk V c 0 t) (iblk V c 1 t) (iblk V c 2 t) (iblk V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) :
    (dat0 V c).after 4 t = out4 (grid0.coords t) (iblk V c 0 t) (iblk V c 1 t) (iblk V c 2 t) (iblk V c 3 t) := by dsimp only [dat0]

theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).Φ t.succ = (dat0 V c).Φ t.castSucc from rfl,
    show (dat0 V c).owesAt () t.succ = (dat0 V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-! ## One array behind two windows

The five windows stand on four buffers: the normalized matrix (windows 0 and 1), the labels as a column (window 2)
and as a row (window 3), and the result (window 4). Entering the region, the four buffers, each whole at the full
share, make the pipeline's arrays: the matrix's full share is cut into its two halves, one for each of its windows;
leaving it, the two halves — both still at the entry contents, an input window never writing its array — are joined
back. -/

/-- The distinct buffers behind the five windows' arrays. -/
theorem arr_image : Finset.univ.image (Pipeline.arrRef spec0) = ({main_v10, main_v0, main_v1, main_v11} : Finset (Ref sig .tc)) := by decide

/-- The four buffers, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_v10) ↦{fullShare} V main_v10) ∗ (((c.tc : Thread nD τ).loc main_v0) ↦{fullShare} V main_v0)
          ∗ (((c.tc : Thread nD τ).loc main_v1) ↦{fullShare} V main_v1) ∗ (((c.tc : Thread nD τ).loc main_v11) ↦{fullShare} V main_v11)) := by
  unfold Pipeline.arrBufs
  rw [arr_image, bigSep_insert (by decide), bigSep_insert (by decide), bigSep_insert (by decide), bigSep_singleton]
  rfl

section Share

variable {c : Dev nD} (dat : Dat τ (Elt F) Unit ℕ (UR sig nD τ) ℕ cfg0 c)
  (hq0 : dat.q 0 = fullShare.left) (hq1 : dat.q 1 = fullShare.right) (hq2 : dat.q 2 = fullShare) (hq3 : dat.q 3 = fullShare)

include hq0 in
theorem share_0 : dat.share 0 = fullShare.left := by unfold Dat.share; rw [← hq0]; rfl
include hq1 in
theorem share_1 : dat.share 1 = fullShare.right := by unfold Dat.share; rw [← hq1]; rfl
include hq2 in
theorem share_2 : dat.share 2 = fullShare := by unfold Dat.share; rw [← hq2]; rfl
include hq3 in
theorem share_3 : dat.share 3 = fullShare := by unfold Dat.share; rw [← hq3]; rfl
theorem share_4 : dat.share 4 = fullShare := by unfold Dat.share; rfl

include hq0 hq1 hq2 hq3 in
/-- ENTRY: the four buffers at contents `V` make the five arrays at `G`, which reads `V` window by window. -/
theorem arrays_of_arrBufs (V : (b : Ref sig .tc) → Buf (Elt F) ((c.tc : Thread nD τ).loc b))
    (G : (w : Fin cfg0.W) → Buf (Elt F) ((cfg0.win w).arr.view.loc (c.tc : Thread nD τ)))
    (hG : ∀ w, G w = V (Pipeline.arrRef spec0 w)) :
    (Pipeline.arrBufs spec0 c V : sProp 𝕄) ⊢ dat.arrays G := by
  unfold Dat.arrays
  rw [arrBufs_eq, bigSep_W0,
    share_0 dat hq0, share_1 dat hq1, share_2 dat hq2, share_3 dat hq3, share_4 dat, hG 0, hG 1, hG 2, hG 3, hG 4,
    (arr_whole0 0).set_eq_univ, (arr_whole0 2).set_eq_univ, (arr_whole0 3).set_eq_univ, (arr_whole0 4).set_eq_univ]
  iintro ⟨H10, H0, H1, H11⟩
  icases (pointsTo_share (PosShare.mem_left_op_right fullShare)).1 $$ H10 with ⟨HL, HR⟩
  isplitl [HL]; · iexact HL
  isplitl [HR]; · iexact HR
  isplitl [H0]; · iexact H0
  isplitl [H1]; · iexact H1
  iexact H11

include hq0 hq1 hq2 hq3 in
/-- EXIT: the five arrays at `G`, which reads `V'` window by window, make the four buffers at `V'`. -/
theorem arrBufs_of_arrays (V' : (b : Ref sig .tc) → Buf (Elt F) ((c.tc : Thread nD τ).loc b))
    (G : (w : Fin cfg0.W) → Buf (Elt F) ((cfg0.win w).arr.view.loc (c.tc : Thread nD τ)))
    (hG : ∀ w, G w = V' (Pipeline.arrRef spec0 w)) :
    dat.arrays G ⊢ (Pipeline.arrBufs spec0 c V' : sProp 𝕄) := by
  unfold Dat.arrays
  rw [arrBufs_eq, bigSep_W0,
    share_0 dat hq0, share_1 dat hq1, share_2 dat hq2, share_3 dat hq3, share_4 dat, hG 0, hG 1, hG 2, hG 3, hG 4,
    (arr_whole0 0).set_eq_univ, (arr_whole0 2).set_eq_univ, (arr_whole0 3).set_eq_univ, (arr_whole0 4).set_eq_univ]
  iintro ⟨HL, HR, H0, H1, H11⟩
  isplitl [HL HR]
  · iapply (pointsTo_share (PosShare.mem_left_op_right fullShare)).2
    isplitl [HL]; · iexact HL
    iexact HR
  isplitl [H0]; · iexact H0
  isplitl [H1]; · iexact H1
  iexact H11

end Share

/-! # The run: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the result array at what its write-backs leave, every other buffer as entered. -/
def W2 (c : Dev nD) : Valuation τ sig (Elt F) :=
  Function.update (W1 m ρ c) (Proc.devRef .tc main_v11) ((dat0 (V1 m ρ) c).arrAt 4 cfg0.N)
theorem W2_out (c : Dev nD) : W2 m ρ c (Proc.devRef .tc main_v11) = (dat0 (V1 m ρ) c).arrAt 4 cfg0.N := by
  unfold W2; exact Function.update_self _ _ _
theorem W2_of_ne (c : Dev nD) (b : Ref sig .tc) (hb : b ≠ main_v11) : W2 m ρ c (Proc.devRef .tc b) = W1 m ρ c (Proc.devRef .tc b) := by
  unfold W2; exact Function.update_of_ne (StableHlo.devRef_ne_of_ne hb) _ _
/-- The same read at the TensorCore's references (the region's exit contents). -/
abbrev V2 : (c : Dev nD) → (b : Ref sig .tc) → Buf (Elt F) ((c : Thread nD τ).loc b) := fun c b => W2 m ρ c b
/-- At the exit each array holds what the pipeline leaves — an input its entry contents, the result its write-backs — -/
theorem hF (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq (V1 m ρ) c 0)).trans (W2_of_ne m ρ c main_v10 (by decide)).symm
  | ⟨1, _⟩ => (((dat0 (V1 m ρ) c).arrAt_in 1 rfl _).trans (A_eq (V1 m ρ) c 1)).trans (W2_of_ne m ρ c main_v10 (by decide)).symm
  | ⟨2, _⟩ => (((dat0 (V1 m ρ) c).arrAt_in 2 rfl _).trans (A_eq (V1 m ρ) c 2)).trans (W2_of_ne m ρ c main_v0 (by decide)).symm
  | ⟨3, _⟩ => (((dat0 (V1 m ρ) c).arrAt_in 3 rfl _).trans (A_eq (V1 m ρ) c 3)).trans (W2_of_ne m ρ c main_v1 (by decide)).symm
  | ⟨4, _⟩ => (W2_out m ρ c).symm
/-- and every buffer that is no window's array what it held at entry. -/
theorem hrest (c : Dev nD) : ∀ b, b ∉ Finset.univ.image (Pipeline.arrRef spec0) → V2 m ρ c b = V1 m ρ c b :=
  fun b hb => W2_of_ne m ρ c b fun e => hb (e ▸ Finset.mem_image.mpr ⟨4, Finset.mem_univ _, rfl⟩)

/-- After the host operations that follow the region, -/
abbrev W3 : Dev nD → Valuation τ sig (Elt F) := fun c => StableHlo.after hostOps1 (W2 m ρ c)
/-- and after the final selection: the contents at the return. -/
abbrev W4 : Dev nD → Valuation τ sig (Elt F) := fun c => StableHlo.after hostOps1_1 (W3 m ρ c)

/-! ### The arguments end as launched: no host operation writes one and the region reads them only -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_1, List.Forall, StableHlo.TRef.ternary, StableHlo.TRef.of, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_1, List.Forall, StableHlo.TRef.ternary, StableHlo.TRef.of, StableHlo.nullary_writes, StableHlo.unary_writes, StableHlo.binary_writes, StableHlo.ternary_writes, StableHlo.reshape_writes, Finset.mem_singleton]
          exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg1) := rfl

/-! ## The region's entry and exit: the arrays out of the core's unscoped buffers, and back -/

theorem entry_split (c : Dev nD) :
    (unscopedBufs (Ix := Unit) (Name := ℕ) (U := UR sig nD τ) (Lvl := ℕ) c (V1 m ρ c) : sProp 𝕄)
      ⊢ iprop((dat0 (V1 m ρ) c).arrays ((dat0 (V1 m ρ) c).arrAt · 0) ∗ Pipeline.unscopedRest spec0 c (V1 m ρ c)) := by
  rw [Pipeline.unscopedBufs_split₀ cfgs 0 winFacts₀0.arr_unscoped c (V1 m ρ c)]
  exact sep_mono (arrays_of_arrBufs (dat0 (V1 m ρ) c) (by dsimp only [dat0]) (by dsimp only [dat0]) (by dsimp only [dat0]) (by dsimp only [dat0])
    (V1 m ρ c) _ (fun w => A_eq (V1 m ρ) c w)) .rfl

theorem exit_join (c : Dev nD) :
    iprop((dat0 (V1 m ρ) c).arrays ((dat0 (V1 m ρ) c).arrAt · cfg0.N) ∗ Pipeline.unscopedRest (Ix := Unit) (Name := ℕ) (U := UR sig nD τ) (Lvl := ℕ) spec0 c (V1 m ρ c))
      ⊢ (unscopedBufs c (V2 m ρ c) : sProp 𝕄) := by
  rw [Pipeline.unscopedBufs_split₀ cfgs 0 winFacts₀0.arr_unscoped c (V2 m ρ c)]
  refine sep_mono (arrBufs_of_arrays (dat0 (V1 m ρ) c) (by dsimp only [dat0]) (by dsimp only [dat0]) (by dsimp only [dat0]) (by dsimp only [dat0])
    (V2 m ρ c) _ (hF m ρ c)) (Entails.of_eq ?_)
  unfold Pipeline.unscopedRest
  exact bigSep_congr fun b hb => by rw [hrest m ρ c b (Finset.mem_sdiff.mp hb).2]

/-! ## The proof data family and the thread state -/

/-- The prefetched tables' admissible contents: the pipeline has no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the return's contents, the generator register at some state. -/
abbrev Tₙ (c : Dev nD) : sProp 𝕄 := iprop(StableHlo.held (c : Thread nD τ) (Pipeline.ucRefs τ sig) (W4 m ρ c) ∗ ∃ r, prngReg c r)

/-- The last host stretch's thread state regrouped: the buffers and the generator register apart from the dues. -/
theorem last_post (c : Dev nD) :
    iprop(StableHlo.held (c : Thread nD τ) (Pipeline.ucRefs τ sig) (W4 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The region as a segment -/

set_option backward.isDefEq.respectTransparency.types false in
/-- The region over the thread state: entered from every unscoped buffer at `W1`, left at `W2`. Its arrays split out
    of the unscoped buffers (the shared matrix cut into halves) and put back at the exit contents; the generator register
    into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's four segments in order: the host stretch before the region, the region, the host stretch after it, the
    final selection. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting,
    and every final state has each unscoped buffer of each core at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution of @main terminates, nothing faulting, with both argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c), (h c _ (mem_uc main_arg1 (by decide))).trans (W4_main_arg1 m ρ c)⟩)
    (run_all m ρ)

end Cert.KernelIdeal.Fr

end
-- ==== Proof.Spec.lean ====
/-
  Batch-hard triplet loss with semi-hard negative mining on row-normalized embeddings, as plain mathematics over
  the extended reals.

  For embeddings `x : 2048 × 1024` and labels `lab : 2048`: rows are scaled by `1 / max(‖x_i‖, ε)`; the squared
  distance of rows `i, j` is `sq i j = max(0, 2 - 2 ⟨e_i, e_j⟩)`; `j` is a POSITIVE of `i` when it has `i`'s label
  and is not `i`, a NEGATIVE when its label differs. Two ways of mining a row are stated:

  * on SQUARED distances (suffix `K`): the hardest positive `hpSq i = max over positives of sq i j`, clamped to
    `ε`; the semi-hard negatives are the negatives whose clamped squared distance exceeds it; the nearest of them
    `shnSq i`; only these two numbers are passed through `√(max · ε)`;
  * on DISTANCES (suffix `R`): `pd i j = √(max(sq i j, ε))` first, then the same maxima and minima over `pd`.

  `√(max · ε)` is monotone, and strictly so on `[ε, ⊤]`, so it commutes with a maximum or minimum over a NONEMPTY
  set and preserves strict comparisons: on a row that has a positive and a semi-hard negative the two ways agree, and
  on any other row both losses are `0`. The batch loss is the sum of the row losses over the count of valid rows
  (`0` when no row is valid); the first way sums four blocks of 512 rows and counts in floating point, the second
  sums all rows at once and counts in integers.
-/
import Idealize.ShloMosaic.PureOps.Ideal

noncomputable section

namespace Cert.Triplet

open Idealize.ShloMosaic
open scoped BigOperators

/-- The clamp `ε` (the f32 nearest `1e-12`), the margin (the f32 nearest `0.3`) and the constant `2`, each kept as the
    value of its bit pattern: both programs carry the same patterns, so none is ever evaluated. -/
def eps : EReal := Ideal.ofBits .f32 0x2B8CBCCC#32
def margin : EReal := Ideal.ofBits .f32 0x3E99999A#32
def two : EReal := Ideal.ofBits .f32 0x40000000#32

/-- Row `i` scaled by `1 / max(√(∑ₖ x i k ²), ε)`. -/
def normalize (x : Fin 2048 → Fin 1024 → EReal) : Fin 2048 → Fin 1024 → EReal :=
  fun i k => Ideal.div (x i k) (max (Ideal.sqrt (∑ k', x i k' * x i k')) eps)

/-- The squared distance of two unit rows through their inner product, clipped at `0`. -/
def sqOf (e : Fin 2048 → Fin 1024 → EReal) (i j : Fin 2048) : EReal :=
  max 0 (two - two * ∑ k, e i k * e j k)

/-- Row `r` of block `t` (four blocks of 512 rows). -/
def blk (t : Fin 4) (r : Fin 512) : Fin 2048 := ⟨512 * t.val + r.val, by omega⟩

section Rows

variable (sq : Fin 2048 → Fin 2048 → EReal) (lab : Fin 2048 → BitVec 32)

/-- `j` is a positive of anchor `i`: same label, another row. -/
def pos (i j : Fin 2048) : Prop := lab i = lab j ∧ i ≠ j
/-- `j` is a negative of anchor `i`: another label. -/
def neg (i j : Fin 2048) : Prop := lab i ≠ lab j

open Classical in
/-- Mining on squared distances: the hardest positive's squared distance (`⊥` for a row without positives). -/
def hpSq (i : Fin 2048) : EReal := Finset.univ.fold max ⊥ (fun j => if pos lab i j then sq i j else ⊥)
/-- `j` is a semi-hard negative of `i`, compared on clamped squared distances. -/
def semiK (i j : Fin 2048) : Prop := neg lab i j ∧ max (hpSq sq lab i) eps < max (sq i j) eps
open Classical in
/-- The nearest semi-hard negative's squared distance (`⊤` for a row without one). -/
def shnSq (i : Fin 2048) : EReal := Finset.univ.fold min ⊤ (fun j => if semiK sq lab i j then sq i j else ⊤)
/-- The row counts: it has a positive, a negative and a semi-hard negative. -/
def validK (i : Fin 2048) : Prop := (∃ j, pos lab i j) ∧ (∃ j, neg lab i j) ∧ (∃ j, semiK sq lab i j)
open Classical in
/-- The row's loss, mined on squared distances. -/
def rowLossK (i : Fin 2048) : EReal :=
  if validK sq lab i then max (Ideal.sqrt (max (hpSq sq lab i) eps) - Ideal.sqrt (max (shnSq sq lab i) eps) + margin) 0 else 0
open Classical in
/-- The row's contribution to the floating-point count. -/
def cntK (i : Fin 2048) : EReal := if validK sq lab i then 1 else 0

/-- Mining on distances. -/
def pd (i j : Fin 2048) : EReal := Ideal.sqrt (max (sq i j) eps)
open Classical in
def hpR (i : Fin 2048) : EReal := Finset.univ.fold max ⊥ (fun j => if pos lab i j then pd sq i j else ⊥)
def semiR (i j : Fin 2048) : Prop := neg lab i j ∧ hpR sq lab i < pd sq i j
open Classical in
def shnR (i : Fin 2048) : EReal := Finset.univ.fold min ⊤ (fun j => if semiR sq lab i j then pd sq i j else ⊤)
def validR (i : Fin 2048) : Prop := (∃ j, pos lab i j) ∧ (∃ j, neg lab i j) ∧ (∃ j, semiR sq lab i j)
open Classical in
def rowLossR (i : Fin 2048) : EReal :=
  if validR sq lab i then max (hpR sq lab i - shnR sq lab i + margin) 0 else 0

open Classical in
/-- The batch loss, block by block with a floating-point count. -/
def lossK : EReal :=
  let S : EReal := ∑ t : Fin 4, ∑ r : Fin 512, rowLossK sq lab (blk t r)
  let C : EReal := ∑ t : Fin 4, ∑ r : Fin 512, cntK sq lab (blk t r)
  if 0 < C then Ideal.div S (max C 1) else 0

open Classical in
/-- The batch loss, all rows at once with an integer count. -/
def lossR : EReal :=
  let n : ℕ := (Finset.univ.filter fun i => validR sq lab i).card
  if 0 < n then Ideal.div (∑ i, rowLossR sq lab i) (((max n 1 : ℕ) : ℝ) : EReal) else 0

end Rows

end Cert.Triplet

end
-- ==== Proof.KIBlocks.lean ====
/-
  The idealized kernel program's result array after the run, block by block: grid point `t` writes back block `t`
  whole and no two points' blocks meet, so block `t` ends holding what point `t` stored, a function of the four
  input blocks at `t` — rows `512 t + r` of the normalized matrix, the whole matrix, those rows' labels, all labels.
-/
import proofs.«424136_j60825326846556_3_alg».proof.Proof.KIFrame
import proofs.«424136_j60825326846556_3_alg».proof.Proof.Spec
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The result array block by block

Grid point `t` writes back block `t` of the result array, whole, and no two points' blocks meet: so after the run
block `t` holds what point `t` stored — `tileOut` of the four input blocks at `t`. Those are: rows `512 t + r` of the
normalized matrix, the whole matrix, the labels of those rows, and all labels. -/

section Blocks

open Idealize.ShloMosaic.ValueIdx Cert.Triplet
open scoped BigOperators

variable (m : (ℓ : Loc nD τ sig) → Buf (Elt Ideal) ℓ) (ρ : Dev nD → PrngReg)

/-- Grid point number `t` of four. -/
def pt (t : Fin 4) : Fin cfg0.N := ⟨t.val, by rw [show cfg0.N = 4 from N_0]; exact t.isLt⟩

theorem coords_pt (t : Fin 4) : ((grid0.coords (pt t)) 0).val = t.val := by
  revert t; decide

/-- What point `t` writes back to the result array: the body's stored block. -/
theorem flushed4 (c : Dev nD) (t : Fin cfg0.N) :
    (dat0 (V1 (F := Ideal) m ρ) c).flushed 4 t = (cfg0.win 4).cut (grid0.coords t)
      (out4 (grid0.coords t) (iblk (V1 m ρ) c 0 t) (iblk (V1 m ρ) c 1 t) (iblk (V1 m ρ) c 2 t) (iblk (V1 m ρ) c 3 t)) := by
  show (cfg0.win 4).cut (grid0.coords t) ((dat0 (V1 m ρ) c).after 4 t) = _
  rw [after_4]

/-- Distinct grid points write distinct blocks. -/
theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

theorem hz3 : (![0, 0, 0] : Fin 3 → Nat) = fun _ => 0 := funext fun a => by fin_cases a <;> rfl
theorem hz2 : (![0, 0] : Fin 2 → Nat) = fun _ => 0 := funext fun a => by fin_cases a <;> rfl

/-- The result window's block index at a point is the point's number, on the first axis. -/
theorem idx_facts4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)

/-- Entry `(t, a, b)` of the result array after the run is entry `(0, a, b)` of what point `t` stored. -/
theorem out_at (c : Dev nD) (t : Fin 4) (a : Fin 8) (b : Fin 128) :
    W2 (F := Ideal) m ρ c (Proc.devRef .tc main_v11) (ix3 t a b)
      = tileOut (F := Ideal) (grid0.coords (pt t)) (iblk (V1 m ρ) c 0 (pt t)) (iblk (V1 m ρ) c 1 (pt t)) (iblk (V1 m ρ) c 2 (pt t)) (iblk (V1 m ρ) c 3 (pt t))
          (ix3 (0 : Fin 1) a b) := by
  rw [W2_out]
  obtain ⟨e0, e1, e2⟩ := idx_facts4 (pt t)
  have he : (ix3 t a b : S4x8x128.Idx) = ((cfg0.win 4).blk (pt t)).view.emb (ix3 (0 : Fin 1) a b) := by
    funext d; apply Fin.ext
    match d with
    | ⟨0, _⟩ => show t.val = win0_4.index (pt t) (0 : Fin 3) * 1 + 1 * 0; rw [e0]; show t.val = t.val * 1 + 1 * 0; omega
    | ⟨1, _⟩ => show a.val = win0_4.index (pt t) (1 : Fin 3) * 8 + 1 * a.val; rw [e1]; omega
    | ⟨2, _⟩ => show b.val = win0_4.index (pt t) (2 : Fin 3) * 128 + 1 * b.val; rw [e2]; omega
  rw [he]
  refine ((dat0 (V1 m ρ) c).arrAt_emb_eq_flushed 4 disjoint4 (pt t) (flush0_4 (pt t)) (ix3 (0 : Fin 1) a b)).trans ?_
  rw [flushed4]
  unfold out4
  rw [View.canon_unit_zero hz3]
  simp only [View.ld_unit_zero (S := S512x1024) hz2, View.ld_unit_zero (S := S2048x1024) hz2, View.ld_unit_zero (S := S512x1) hz2, View.ld_unit_zero (S := S1x2048) hz2]
  rfl

/-- The four input windows' block indices at a point: the query rows and their labels move with the point, the whole
    matrix and the row of all labels stay. -/
theorem idx_facts_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0)

/-- The query window's block at point `t` is rows `512 t + r` of the matrix. -/
theorem iblk0_at (c : Dev nD) (t : Fin 4) (r : Fin 512) (k : Fin 1024) :
    iblk (V1 (F := Ideal) m ρ) c 0 (pt t) (ix2 r k) = V1 (F := Ideal) m ρ c main_v10 (ix2 (blk t r) k) := by
  obtain ⟨e0, e1, -⟩ := idx_facts_in (pt t)
  unfold iblk
  rw [View.read_apply]
  show V1 m ρ c main_v10 (((cfg0.win 0).blk (pt t)).view.emb (ix2 r k)) = _
  refine congrArg _ ?_
  funext d; apply Fin.ext
  match d with
  | ⟨0, _⟩ => show win0_0.index (pt t) (0 : Fin 2) * 512 + 1 * r.val = 512 * t.val + r.val; rw [e0]; show t.val * 512 + 1 * r.val = _; omega
  | ⟨1, _⟩ => show win0_0.index (pt t) (1 : Fin 2) * 1024 + 1 * k.val = k.val; rw [e1]; omega

/-- The key window's block is the whole matrix at every point. -/
theorem iblk1_at (c : Dev nD) (t : Fin 4) (j : Fin 2048) (k : Fin 1024) :
    iblk (V1 (F := Ideal) m ρ) c 1 (pt t) (ix2 j k) = V1 (F := Ideal) m ρ c main_v10 (ix2 j k) := by
  obtain ⟨-, -, e0, e1, -⟩ := idx_facts_in (pt t)
  unfold iblk
  rw [View.read_apply]
  show V1 m ρ c main_v10 (((cfg0.win 1).blk (pt t)).view.emb (ix2 j k)) = _
  refine congrArg _ ?_
  funext d; apply Fin.ext
  match d with
  | ⟨0, _⟩ => show win0_1.index (pt t) (0 : Fin 2) * 2048 + 1 * j.val = j.val; rw [e0]; omega
  | ⟨1, _⟩ => show win0_1.index (pt t) (1 : Fin 2) * 1024 + 1 * k.val = k.val; rw [e1]; omega

/-- The row-label window's block at point `t` is the labels of rows `512 t + r`. -/
theorem iblk2_at (c : Dev nD) (t : Fin 4) (r : Fin 512) :
    iblk (V1 (F := Ideal) m ρ) c 2 (pt t) (ix2 r (0 : Fin 1)) = V1 (F := Ideal) m ρ c main_v0 (ix2 (blk t r) (0 : Fin 1)) := by
  obtain ⟨-, -, -, -, e0, e1, -⟩ := idx_facts_in (pt t)
  unfold iblk
  rw [View.read_apply]
  show V1 m ρ c main_v0 (((cfg0.win 2).blk (pt t)).view.emb (ix2 r (0 : Fin 1))) = _
  refine congrArg _ ?_
  funext d; apply Fin.ext
  match d with
  | ⟨0, _⟩ => show win0_2.index (pt t) (0 : Fin 2) * 512 + 1 * r.val = 512 * t.val + r.val; rw [e0]; show t.val * 512 + 1 * r.val = _; omega
  | ⟨1, _⟩ => show win0_2.index (pt t) (1 : Fin 2) * 1 + 1 * 0 = 0; rw [e1]

/-- The column-label window's block is the row of all labels at every point. -/
theorem iblk3_at (c : Dev nD) (t : Fin 4) (j : Fin 2048) :
    iblk (V1 (F := Ideal) m ρ) c 3 (pt t) (ix2 (0 : Fin 1) j) = V1 (F := Ideal) m ρ c main_v1 (ix2 (0 : Fin 1) j) := by
  obtain ⟨-, -, -, -, -, -, e0, e1⟩ := idx_facts_in (pt t)
  unfold iblk
  rw [View.read_apply]
  show V1 m ρ c main_v1 (((cfg0.win 3).blk (pt t)).view.emb (ix2 (0 : Fin 1) j)) = _
  refine congrArg _ ?_
  funext d; apply Fin.ext
  match d with
  | ⟨0, _⟩ => show win0_3.index (pt t) (0 : Fin 2) * 1 + 1 * 0 = 0; rw [e0]
  | ⟨1, _⟩ => show win0_3.index (pt t) (1 : Fin 2) * 2048 + 1 * j.val = j.val; rw [e1]; omega

end Blocks

end Cert.KernelIdeal.Fr

end
-- ==== Proof.KIHost.lean ====
/-
  The host side of the idealized kernel program, read at the extended reals. Before the region: the labels re-laid as
  a column and as a row, and the embeddings scaled row by row by `1 / max(‖x_i‖, ε)` and narrowed (the identity at the
  extended reals). After the region: the four blocks' sums and counts added up, and the quotient selected when the
  count is positive.
-/
import proofs.«424136_j60825326846556_3_alg».proof.Proof.KIFrame
import proofs.«424136_j60825326846556_3_alg».proof.Proof.Spec
import Idealize.ShloMosaic.Lib.ValueIdx
import Idealize.ShloMosaic.Lib.ValueIdxRank1
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The host operations read at an index

Before the region: the labels re-laid as a column and as a row, and the embeddings scaled row by row and narrowed (the
identity at the extended reals). After the region: the four blocks' sums and counts added up, and the quotient selected
when the count is positive. -/

section HostValues

open Idealize.ShloMosaic.ValueIdx Cert.Triplet
open scoped BigOperators

variable (m : (ℓ : Loc nD τ sig) → Buf (Elt Ideal) ℓ) (ρ : Dev nD → PrngReg)

/-- The embeddings and the labels the program is launched on, by coordinates. -/
def argX (c : Dev nD) : Fin 2048 → Fin 1024 → EReal := fun i k => m ((c : Thread nD τ).loc main_arg0) (ix2 i k)
def argL (c : Dev nD) : Fin 2048 → BitVec 32 := fun i => m ((c : Thread nD τ).loc main_arg1) (ix1 i)

/-- The squared row sums: entry `i` of the sum of squares along the second axis. -/
theorem rowSq_apply (x : FVec Ideal S2048x1024 .f32) (i : Fin 2048) :
    Host.reduceAdd (F := Ideal) (mulf x x) (constant (F := Ideal) S_ .f32 0x00000000#32) reducesTo_S2048x1024_S2048_d1 h_S_ (ix1 i)
      = ∑ k' : Fin 1024, x (ix2 i k') * x (ix2 i k') := by
  generalize hy : mulf x x = y
  simp only [Host.reduceAdd, Ideal.hostReduceAdd_def]
  rw [Ideal.hostReduceAdd_single reducesTo_S2048x1024_S2048_d1 (by decide)]
  subst hy
  rw [show constant (F := Ideal) S_ .f32 0x00000000#32 (Shape.Idx.first h_S_) = Ideal.ofBits .f32 0x00000000#32 from rfl,
    Ideal.ofBits_zero_f32, zero_add]
  refine Finset.sum_congr rfl fun k _ => ?_
  refine (mulf_apply x x _).trans ?_
  have e : ∀ (h : Shape.Reduces S2048x1024 [1] S2048), h.lift (ix1 i) k = ix2 i k := fun h =>
    funext fun a => Fin.ext (by match a with | ⟨0, _⟩ => rfl | ⟨1, _⟩ => rfl)
  rw [e]
  rfl

/-- The row-normalizing chain read at (i, k): the entry over the larger of its row's norm and the clamp. -/
theorem normChain_apply (x : FVec Ideal S2048x1024 .f32) (i : Fin 2048) (k : Fin 1024) :
    (truncf .bf16 (Host.divf (F := Ideal) x
        (broadcastInDim S2048x1024 ![0, 1] bcast_S2048x1_S2048x1024_0_1
          (maximumf
            (Host.sqrt (F := Ideal)
              (broadcastInDim S2048x1 ![0] bcast_S2048_S2048x1_0
                (Host.reduceAdd (F := Ideal) (mulf x x) (constant (F := Ideal) S_ .f32 0x00000000#32) reducesTo_S2048x1024_S2048_d1 h_S_)))
            (broadcastInDim S2048x1 ![] bcast_S_S2048x1 (constant (F := Ideal) S_ .f32 0x2B8CBCCC#32)))))
      bitsLt_bf16_f32 : FVec Ideal S2048x1024 .bf16) (ix2 i k)
    = Ideal.div (x (ix2 i k)) (max (Ideal.sqrt (∑ k' : Fin 1024, x (ix2 i k') * x (ix2 i k'))) eps) := by
  have hr := rowSq_apply x i
  generalize Host.reduceAdd (F := Ideal) (mulf x x) (constant (F := Ideal) S_ .f32 0x00000000#32) reducesTo_S2048x1024_S2048_d1 h_S_ = r at hr ⊢
  generalize hd : maximumf
            (Host.sqrt (F := Ideal) (broadcastInDim S2048x1 ![0] bcast_S2048_S2048x1_0 r))
            (broadcastInDim S2048x1 ![] bcast_S_S2048x1 (constant (F := Ideal) S_ .f32 0x2B8CBCCC#32)) = d
  have hd0 : d (ix2 i (0 : Fin 1)) = max (Ideal.sqrt (∑ k' : Fin 1024, x (ix2 i k') * x (ix2 i k'))) eps := by
    rw [← hd, ← hr]
    refine (maximumf_apply _ _ _).trans (congrArg₂ max ?_ ?_)
    · show Ideal.sqrt (broadcastInDim S2048x1 ![0] bcast_S2048_S2048x1_0 r (ix2 i (0 : Fin 1))) = _
      refine congrArg Ideal.sqrt ?_
      exact broadcastInDim_apply _ bcast_S2048_S2048x1_0 r (ix2 i (0 : Fin 1)) (ix1 i) (fun a => match a with
        | ⟨0, _⟩ => by show i.val = if (2048 : Nat) = 1 then 0 else i.val; rw [if_neg (by decide)])
    · exact broadcastInDim_apply _ bcast_S_S2048x1 (constant (F := Ideal) S_ .f32 0x2B8CBCCC#32) (ix2 i (0 : Fin 1)) ix0 (fun a => a.elim0)
  rw [← hd0]
  show Ideal.div (x (ix2 i k)) (broadcastInDim S2048x1024 ![0, 1] bcast_S2048x1_S2048x1024_0_1 d (ix2 i k)) = _
  refine congrArg (Ideal.div (x (ix2 i k))) ?_
  exact broadcastInDim_apply _ bcast_S2048x1_S2048x1024_0_1 d (ix2 i k) (ix2 i (0 : Fin 1)) (fun a => match a with
    | ⟨0, _⟩ => by show i.val = if (2048 : Nat) = 1 then 0 else i.val; rw [if_neg (by decide)]
    | ⟨1, _⟩ => by show 0 = if (1 : Nat) = 1 then 0 else k.val; rw [if_pos rfl])

/-- A vector re-laid as a column reads its entry `i` at (i, 0). -/
theorem col_apply {α : Type} (l : S2048.Idx → α) (i : Fin 2048) :
    shapeCast S2048x1 l shapeCasts_S2048_S2048x1 (ix2 i (0 : Fin 1)) = l (ix1 i) :=
  shapeCast_apply l shapeCasts_S2048_S2048x1 (ix2 i (0 : Fin 1)) (ix1 i) (by
    rw [Shape.rowMajor_val_one, Shape.rowMajor_val_two]; show i.val = i.val * 1 + 0; omega)

/-- A vector re-laid as a row reads its entry `j` at (0, j). -/
theorem row_apply {α : Type} (l : S2048.Idx → α) (j : Fin 2048) :
    shapeCast S1x2048 l shapeCasts_S2048_S1x2048 (ix2 (0 : Fin 1) j) = l (ix1 j) :=
  shapeCast_apply l shapeCasts_S2048_S1x2048 (ix2 (0 : Fin 1) j) (ix1 j) (by
    rw [Shape.rowMajor_val_one, Shape.rowMajor_val_two]; show j.val = 0 * 2048 + j.val; omega)

/-- The f32 pattern of one is the extended real `1`. -/
theorem ofBits_one_f32 : Ideal.ofBits .f32 0x3F800000#32 = 1 := by
  simp [Ideal.ofBits, Ideal.ieee, -EReal.coe_mul]; norm_num

/-- Column `0` of row `0` of the four blocks, added up from zero. -/
theorem blockSum0_apply (O : FVec Ideal S4x8x128 .f32) :
    Host.reduceAdd (F := Ideal)
        (shapeCast S4 (extractStridedSlice S4x1x1 ![0, 0, 0] O slices_S4x8x128_S4x1x1_0_0_0) shapeCasts_S4x1x1_S4)
        (constant (F := Ideal) S_ .f32 0x00000000#32) reducesTo_S4_S_d0 h_S_ ix0
      = ∑ t : Fin 4, O (ix3 t (0 : Fin 8) (0 : Fin 128)) := by
  generalize hy : shapeCast S4 (extractStridedSlice S4x1x1 ![0, 0, 0] O slices_S4x8x128_S4x1x1_0_0_0) shapeCasts_S4x1x1_S4 = y
  simp only [Host.reduceAdd, Ideal.hostReduceAdd_def]
  rw [Ideal.hostReduceAdd_total reducesTo_S4_S_d0 (fun b => b.elim0)]
  rw [show constant (F := Ideal) S_ .f32 0x00000000#32 (Shape.Idx.first h_S_) = Ideal.ofBits .f32 0x00000000#32 from rfl,
    Ideal.ofBits_zero_f32, zero_add, ← Equiv.sum_comp (idxEquiv1 (n := 4)).symm]
  refine Finset.sum_congr rfl fun t _ => ?_
  subst hy
  show shapeCast S4 (extractStridedSlice S4x1x1 ![0, 0, 0] O slices_S4x8x128_S4x1x1_0_0_0) shapeCasts_S4x1x1_S4 (ix1 t) = _
  refine (shapeCast_apply _ shapeCasts_S4x1x1_S4 (ix1 t) (ix3 t (0 : Fin 1) (0 : Fin 1)) (by
    rw [Shape.rowMajor_val_three, Shape.rowMajor_val_one]; show (t.val * 1 + 0) * 1 + 0 = t.val; omega)).trans ?_
  exact extractStridedSlice_apply _ O slices_S4x8x128_S4x1x1_0_0_0 (ix3 t (0 : Fin 1) (0 : Fin 1)) (ix3 t (0 : Fin 8) (0 : Fin 128))
    (fun a => match a with
      | ⟨0, _⟩ => by show t.val = 0 + t.val; omega
      | ⟨1, _⟩ => by show 0 = 0 + 0; rfl
      | ⟨2, _⟩ => by show 0 = 0 + 0; rfl)

/-- Column `1` of row `0` of the four blocks, added up from zero. -/
theorem blockSum1_apply (O : FVec Ideal S4x8x128 .f32) :
    Host.reduceAdd (F := Ideal)
        (shapeCast S4 (extractStridedSlice S4x1x1 ![0, 0, 1] O slices_S4x8x128_S4x1x1_0_0_1) shapeCasts_S4x1x1_S4)
        (constant (F := Ideal) S_ .f32 0x00000000#32) reducesTo_S4_S_d0 h_S_ ix0
      = ∑ t : Fin 4, O (ix3 t (0 : Fin 8) (1 : Fin 128)) := by
  generalize hy : shapeCast S4 (extractStridedSlice S4x1x1 ![0, 0, 1] O slices_S4x8x128_S4x1x1_0_0_1) shapeCasts_S4x1x1_S4 = y
  simp only [Host.reduceAdd, Ideal.hostReduceAdd_def]
  rw [Ideal.hostReduceAdd_total reducesTo_S4_S_d0 (fun b => b.elim0)]
  rw [show constant (F := Ideal) S_ .f32 0x00000000#32 (Shape.Idx.first h_S_) = Ideal.ofBits .f32 0x00000000#32 from rfl,
    Ideal.ofBits_zero_f32, zero_add, ← Equiv.sum_comp (idxEquiv1 (n := 4)).symm]
  refine Finset.sum_congr rfl fun t _ => ?_
  subst hy
  show shapeCast S4 (extractStridedSlice S4x1x1 ![0, 0, 1] O slices_S4x8x128_S4x1x1_0_0_1) shapeCasts_S4x1x1_S4 (ix1 t) = _
  refine (shapeCast_apply _ shapeCasts_S4x1x1_S4 (ix1 t) (ix3 t (0 : Fin 1) (0 : Fin 1)) (by
    rw [Shape.rowMajor_val_three, Shape.rowMajor_val_one]; show (t.val * 1 + 0) * 1 + 0 = t.val; omega)).trans ?_
  exact extractStridedSlice_apply _ O slices_S4x8x128_S4x1x1_0_0_1 (ix3 t (0 : Fin 1) (0 : Fin 1)) (ix3 t (0 : Fin 8) (1 : Fin 128))
    (fun a => match a with
      | ⟨0, _⟩ => by show t.val = 0 + t.val; omega
      | ⟨1, _⟩ => by show 0 = 0 + 0; rfl
      | ⟨2, _⟩ => by show 1 = 1 + 0; rfl)

/-- The closing selection on scalars: the quotient by the count clamped below at one when the count is positive, else zero. -/
theorem tail_apply (Sv Cv : FVec Ideal S_ .f32) :
    select (cmpf .ogt Cv (constant (F := Ideal) S_ .f32 0x00000000#32))
        (Host.divf (F := Ideal) Sv (maximumf Cv (constant (F := Ideal) S_ .f32 0x3F800000#32)))
        (constant (F := Ideal) S_ .f32 0x00000000#32)
      = fun _ => if 0 < Cv ix0 then Ideal.div (Sv ix0) (max (Cv ix0) 1) else 0 := by
  funext j
  obtain rfl := eq_ix0 j
  show Scalar.select (Ideal.cmp .ogt (Cv ix0) (Ideal.ofBits .f32 0x00000000#32))
      (Ideal.div (Sv ix0) (max (Cv ix0) (Ideal.ofBits .f32 0x3F800000#32))) (Ideal.ofBits .f32 0x00000000#32) = _
  rw [Ideal.ofBits_zero_f32, ofBits_one_f32]
  by_cases h : 0 < Cv ix0
  · rw [if_pos h, show Ideal.cmp .ogt (Cv ix0) 0 = 1#1 from by simp [Ideal.cmp, h], select_one]
  · rw [if_neg h, show Ideal.cmp .ogt (Cv ix0) 0 = 0#1 from by simp [Ideal.cmp, h], select_zero]

/-- The matrix both matrix windows read is the row-normalized embeddings. -/
theorem V1_matrix (c : Dev nD) (i : Fin 2048) (k : Fin 1024) :
    V1 (F := Ideal) m ρ c main_v10 (ix2 i k) = normalize (argX m c) i k := by
  show StableHlo.after hostOps0 (W0 m ρ c) (Proc.devRef .tc main_v10) (ix2 i k) = _
  after_results
  exact normChain_apply (m ((c : Thread nD τ).loc main_arg0)) i k

/-- The column of labels the row-label window reads. -/
theorem V1_rowLabels (c : Dev nD) (i : Fin 2048) :
    V1 (F := Ideal) m ρ c main_v0 (ix2 i (0 : Fin 1)) = argL m c i := by
  show StableHlo.after hostOps0 (W0 m ρ c) (Proc.devRef .tc main_v0) (ix2 i (0 : Fin 1)) = _
  after_results
  exact col_apply (m ((c : Thread nD τ).loc main_arg1)) i

/-- The row of labels the column-label window reads. -/
theorem V1_colLabels (c : Dev nD) (j : Fin 2048) :
    V1 (F := Ideal) m ρ c main_v1 (ix2 (0 : Fin 1) j) = argL m c j := by
  show StableHlo.after hostOps0 (W0 m ρ c) (Proc.devRef .tc main_v1) (ix2 (0 : Fin 1) j) = _
  after_results
  exact row_apply (m ((c : Thread nD τ).loc main_arg1)) j

/-- The program's result from the array `O` the region leaves: entry (t, 0, 0) is block `t`'s sum, (t, 0, 1) its count. -/
theorem W4_result (c : Dev nD) :
    W4 (F := Ideal) m ρ c (Proc.devRef .tc main_v21)
      = fun _ =>
          let S : EReal := ∑ t : Fin 4, W2 (F := Ideal) m ρ c (Proc.devRef .tc main_v11) (ix3 t (0 : Fin 8) (0 : Fin 128))
          let C : EReal := ∑ t : Fin 4, W2 (F := Ideal) m ρ c (Proc.devRef .tc main_v11) (ix3 t (0 : Fin 8) (1 : Fin 128))
          if 0 < C then Ideal.div S (max C 1) else 0 := by
  dsimp only [W4, W3]
  after_results
  generalize W2 (F := Ideal) m ρ c (Proc.devRef .tc main_v11) = O
  rw [← blockSum0_apply O, ← blockSum1_apply O]
  exact tail_apply _ _

end HostValues

end Cert.KernelIdeal.Fr

end
-- ==== Proof.KITile.lean ====
/-
  What one grid point's output block holds, at the extended reals: entry (0, 0, 0) is the sum over the block's 512
  rows of the row losses mined on squared distances, entry (0, 0, 1) the floating-point count of its valid rows —
  both in the specification's terms, for a block whose loaded query rows are rows `512 t + r` of the normalized
  matrix, whose key matrix is all of it, and whose row and column labels are the labels of those rows and of all rows.
-/
import proofs.«424136_j60825326846556_3_alg».proof.Proof.KIBody
import proofs.«424136_j60825326846556_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Mathlib.Data.Finset.Fold

noncomputable section

namespace Cert.KernelIdeal.Tile

open Cert.KernelIdeal Cert.KernelIdeal.Gen Idealize.ShloMosaic Idealize.ShloMosaic.ValueIdx
open Cert.Triplet
open scoped BigOperators

/-! ## The words the body evaluates -/

/-- The word `0x3F800000` is the real `1`. -/
theorem ofBits_one : Ideal.ofBits .f32 0x3F800000#32 = 1 := by
  simp [Ideal.ofBits, Ideal.ieee, -EReal.coe_mul]; norm_num

/-- The word `0xFF800000` is `-∞`. -/
theorem ofBits_bot : Ideal.ofBits .f32 0xFF800000#32 = ⊥ := by simp [Ideal.ofBits, Ideal.ieee]

/-- The word `0x7F800000` is `+∞`. -/
theorem ofBits_top : Ideal.ofBits .f32 0x7F800000#32 = ⊤ := by simp [Ideal.ofBits, Ideal.ieee]

/-- The mask value below every squared distance is `-∞`. -/
theorem negBig : Named.named (F := Ideal) κ "neg_big" (φ := .f32) 0xF149F2CA#32 = ⊥ :=
  IdealRules.named_const.ideal_named_scalar _ _ _ _ rfl

/-- The mask value above every squared distance is `+∞`. -/
theorem posBig : Named.named (F := Ideal) κ "pos_big" (φ := .f32) 0x7149F2CA#32 = ⊤ :=
  IdealRules.named_const.ideal_named_scalar _ _ _ _ rfl

/-! ## The Gram matrix and the squared distances -/

theorem gram_lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide),
    dif_pos (show (0 : Fin S512x1024.rank) ∈ dot_S512x1024_S2048x1024_S512x2048_1_1_0_0_n_n.lhsNonContracting by decide)]
  rfl
theorem gram_lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem gram_rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide),
    dif_pos (show (0 : Fin S2048x1024.rank) ∈ dot_S512x1024_S2048x1024_S512x2048_1_1_0_0_n_n.rhsNonContracting by decide)]
  rfl
theorem gram_rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The product into the zero block, at `(r, j)`: the inner product of query row `r` and key row `j`. -/
theorem gram_apply (y0 : FVec Ideal S512x1024 .bf16) (y1 : FVec Ideal S2048x1024 .bf16) (r : Fin 512) (j : Fin 2048) :
    matmul (F := Ideal) dot_S512x1024_S2048x1024_S512x2048_1_1_0_0_n_n none y0 y1 (constant (F := Ideal) S512x2048 .f32 0x00000000#32) (ix2 r j)
      = ∑ k : Fin 1024, y0 (ix2 r k) * y1 (ix2 j k) := by
  simp only [matmul]
  rw [Ideal.matmul_constant_zero_apply,
    ← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r j)
      ((contrEquiv1 dot_S512x1024_S2048x1024_S512x2048_1_1_0_0_n_n 1024 rfl rfl).symm k) = ix2 r k :=
    funext fun a => Fin.ext (by
      match a with
      | ⟨0, _⟩ => exact gram_lhs_0 _ _
      | ⟨1, _⟩ => exact (gram_lhs_1 _ _).trans hk)
  have er : dot_S512x1024_S2048x1024_S512x2048_1_1_0_0_n_n.rhsIdx (ix2 r j)
      ((contrEquiv1 dot_S512x1024_S2048x1024_S512x2048_1_1_0_0_n_n 1024 rfl rfl).symm k) = ix2 j k :=
    funext fun a => Fin.ext (by
      match a with
      | ⟨0, _⟩ => exact gram_rhs_0 _ _
      | ⟨1, _⟩ => exact (gram_rhs_1 _ _).trans hk)
  rw [el, er]

/-- The clipped squared distance at `(r, j)`, from the two loaded blocks. -/
theorem pay2_apply (x0 : Vec Ideal S512x1024 .bf16) (x1 : Vec Ideal S2048x1024 .bf16) (r : Fin 512) (j : Fin 2048) :
    k0_pay2 (F := Ideal) x0 x1 (ix2 r j) = max 0 (two - two * ∑ k : Fin 1024, x0 (ix2 r k) * x1 (ix2 j k)) := by
  unfold k0_pay2
  rw [shapeCast_self, shapeCast_self]
  show max (Ideal.ofBits .f32 0x00000000#32) (two - two * _) = _
  rw [Ideal.ofBits_zero_f32]
  exact congrArg (fun s => max 0 (two - two * s)) (gram_apply x0 x1 r j)

/-! ## Layout operations at an index -/

/-- A column `[512, 1]` broadcast along the lanes reads, at `(r, j)`, the column at `r`. -/
theorem bcol_apply {α : Type} (v : S512x1.Idx → α) (r : Fin 512) (j : Fin 2048) :
    broadcastTo S512x2048 v broadcasts_S512x1_S512x2048 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- A vector `[512]` viewed as a column `[512, 1]` reads, at `(r, 0)`, the vector at `r`. -/
theorem col_apply {α : Type} (v : S512.Idx → α) (r : Fin 512) (u : Fin 1) :
    shapeCast S512x1 v shapeCasts_S512_S512x1 (ix2 r u) = v (ix1 r) :=
  shapeCast_apply v _ _ _ (by
    have hu : u.val = 0 := by omega
    rw [Shape.rowMajor_val_two, Shape.rowMajor_val_one]
    show r.val = r.val * 1 + u.val
    rw [hu, Nat.mul_one, Nat.add_zero])

/-! ## One-bit words -/

theorem cmpi_eq_iff {w : Nat} (a b : BitVec w) : IntOp.cmpi .eq a b = 1#1 ↔ a = b := by
  show BitVec.ofBool (a == b) = 1#1 ↔ a = b
  by_cases h : a = b
  · subst h; simp
  · have hb : (a == b) = false := by simpa using h
    rw [hb]; simp [h]

theorem andi_iff (a b : BitVec 1) : IntOp.andi a b = 1#1 ↔ a = 1#1 ∧ b = 1#1 := by
  rcases BitVec.eq_zero_or_eq_one a with h | h <;> rcases BitVec.eq_zero_or_eq_one b with h' | h' <;>
    subst h <;> subst h' <;> decide

theorem xori_one_iff (a : BitVec 1) : IntOp.xori a 1#1 = 1#1 ↔ ¬ a = 1#1 := by
  rcases BitVec.eq_zero_or_eq_one a with h | h <;> subst h <;> decide

/-- A select on a bit that says `P` is the `if` on `P`, whatever decides `P`. -/
theorem select_eq_ite {α : Type} (c : BitVec 1) (P : Prop) [Decidable P] (h : c = 1#1 ↔ P) (a b : α) :
    Scalar.select c a b = if P then a else b := by
  by_cases hp : P
  · rw [if_pos hp, h.mpr hp]; exact select_one a b
  · rw [if_neg hp, eq_zero_of_ne_one (fun hc => hp (h.mp hc))]; exact select_zero a b

/-- The global row index `512 t + r` and a column index `j`, both below `2048`, are equal as 32-bit words exactly when they are equal. -/
theorem rowWord_eq_iff (t r j : Nat) (ht : t < 4) (hr : r < 512) (hj : j < 2048) :
    IntOp.addi (Scalar.muli (BitVec.ofNat 32 t) 512#32) (BitVec.ofNat 32 r) = BitVec.ofNat 32 j ↔ 512 * t + r = j := by
  show BitVec.ofNat 32 t * 512#32 + BitVec.ofNat 32 r = BitVec.ofNat 32 j ↔ _
  rw [← BitVec.toNat_inj]
  simp only [BitVec.toNat_add, BitVec.toNat_mul, BitVec.toNat_ofNat]
  omega

/-! ## The label masks -/

/-- The same-label bit at `(r, j)`. -/
theorem pay3_apply (x2 : Vec Ideal S512x1 .i32) (x3 : Vec Ideal S1x2048 .i32) (r : Fin 512) (j : Fin 2048) :
    k0_pay3 (F := Ideal) x2 x3 (ix2 r j) = IntOp.cmpi .eq (x2 (ix2 r (0 : Fin 1))) (x3 (ix2 (0 : Fin 1) j)) := by
  unfold k0_pay3
  rw [shapeCast_self, shapeCast_self]
  show IntOp.cmpi .eq (broadcastTo S512x2048 x2 _ (ix2 r j)) (broadcastTo S512x2048 x3 _ (ix2 r j)) = _
  rw [bcol_apply, broadcastTo_1b_ab_apply]

/-- The positive mask at `(r, j)`: same label, and `j` is not the row's own global index. -/
theorem pay4_iff (i : grid0.Coords) (t : Fin 4) (hi : (i 0).val = t.val) (x2 : Vec Ideal S512x1 .i32) (x3 : Vec Ideal S1x2048 .i32)
    (r : Fin 512) (j : Fin 2048) :
    k0_pay4 (F := Ideal) i x2 x3 (ix2 r j) = 1#1 ↔ (x2 (ix2 r (0 : Fin 1)) = x3 (ix2 (0 : Fin 1) j) ∧ blk t r ≠ j) := by
  unfold k0_pay4
  show IntOp.andi (k0_pay3 (F := Ideal) x2 x3 (ix2 r j))
      (IntOp.xori (IntOp.cmpi .eq (broadcastTo S512x2048
          (addi (broadcast S512x1 (Scalar.muli (BitVec.ofNat 32 (i 0).val) 512#32)) (iota .tc S512x1 32 [0] iota_S512x1_d0_w32))
          broadcasts_S512x1_S512x2048 (ix2 r j))
        (iota .tc S512x2048 32 [1] iota_S512x2048_d1_w32 (ix2 r j))) 1#1) = 1#1 ↔ _
  rw [andi_iff, xori_one_iff, cmpi_eq_iff, pay3_apply, cmpi_eq_iff, bcol_apply, iota_single_apply]
  show _ ∧ ¬ IntOp.addi (Scalar.muli (BitVec.ofNat 32 (i 0).val) 512#32) (iota .tc S512x1 32 [0] iota_S512x1_d0_w32 (ix2 r (0 : Fin 1)))
      = BitVec.ofNat 32 j.val ↔ _
  rw [iota_single_apply, hi]
  show _ ∧ ¬ IntOp.addi (Scalar.muli (BitVec.ofNat 32 t.val) 512#32) (BitVec.ofNat 32 r.val) = BitVec.ofNat 32 j.val ↔ _
  rw [rowWord_eq_iff t.val r.val j.val t.isLt r.isLt j.isLt]
  refine and_congr_right fun _ => not_congr ?_
  exact ⟨fun h => Fin.ext h, fun h => congrArg Fin.val h⟩

/-- The negative mask at `(r, j)`: another label. -/
theorem pay5_iff (x2 : Vec Ideal S512x1 .i32) (x3 : Vec Ideal S1x2048 .i32) (r : Fin 512) (j : Fin 2048) :
    k0_pay5 (F := Ideal) x2 x3 (ix2 r j) = 1#1 ↔ x2 (ix2 r (0 : Fin 1)) ≠ x3 (ix2 (0 : Fin 1) j) := by
  unfold k0_pay5
  show IntOp.xori (k0_pay3 (F := Ideal) x2 x3 (ix2 r j)) 1#1 = 1#1 ↔ _
  rw [xori_one_iff, pay3_apply, cmpi_eq_iff]

/-! ## The lane reductions -/

/-- The reduced index `r` with lane `k` put back is `(r, k)`. -/
theorem lift_row (r : Fin 512) (k : Fin 2048) : reduces_S512x2048_S512.lift (ix1 r) k = ix2 r k :=
  funext fun a => Fin.ext (by
    match a with
    | ⟨0, _⟩ => rfl
    | ⟨1, _⟩ => rfl)

/-- A row's maximum over the lanes, from `-∞`. -/
theorem rowmax_apply (v : FVec Ideal S512x2048 .f32) (r : Fin 512) :
    multiReduction (F := Ideal) .maximumf [1] S512 v 0xFF800000#32 reduces_S512x2048_S512 (.inl rfl) rfl (ix1 r)
      = Finset.univ.fold max ⊥ (fun j : Fin 2048 => v (ix2 r j)) := by
  refine (Ideal.multiReduction_maximumf_single v 0xFF800000#32 reduces_S512x2048_S512 (.inl rfl) rfl (ix1 r)).trans ?_
  show (Finset.univ : Finset (Fin 2048)).fold max (Ideal.ofBits .f32 0xFF800000#32)
      (fun k => v (reduces_S512x2048_S512.lift (ix1 r) k)) = _
  rw [ofBits_bot]
  exact congrArg (Finset.fold max ⊥ · Finset.univ) (funext fun k => congrArg v (lift_row r k))

/-- A row's minimum over the lanes, from `+∞`. -/
theorem rowmin_apply (v : FVec Ideal S512x2048 .f32) (r : Fin 512) :
    multiReduction (F := Ideal) .minimumf [1] S512 v 0x7F800000#32 reduces_S512x2048_S512 (.inl rfl) rfl (ix1 r)
      = Finset.univ.fold min ⊤ (fun j : Fin 2048 => v (ix2 r j)) := by
  refine (multiReduction_minimumf_eq_fold v 0x7F800000#32 reduces_S512x2048_S512 (.inl rfl) rfl (ix1 r)).trans ?_
  refine (reduces_S512x2048_S512.fold_filter_drop_single _ _ v (ix1 r)).trans ?_
  show (Finset.univ : Finset (Fin 2048)).fold min (Ideal.ofBits .f32 0x7F800000#32)
      (fun k => v (reduces_S512x2048_S512.lift (ix1 r) k)) = _
  rw [ofBits_top]
  exact congrArg (Finset.fold min ⊤ · Finset.univ) (funext fun k => congrArg v (lift_row r k))

theorem cmp_ogt_iff (a b : EReal) : Ideal.cmp .ogt a b = 1#1 ↔ b < a := by
  show BitVec.ofBool (decide (b < a)) = 1#1 ↔ b < a
  by_cases h : b < a
  · rw [decide_eq_true h]; exact ⟨fun _ => h, fun _ => rfl⟩
  · rw [decide_eq_false h]; exact ⟨fun hc => absurd hc (by decide), fun hc => absurd hc h⟩

theorem cmpf_ogt_iff {s : Shape} {φ : FTy} (a b : FVec Ideal s φ) (i : s.Idx) : cmpf .ogt a b i = 1#1 ↔ b i < a i :=
  cmp_ogt_iff _ _

/-! ## The hardest positive and the semi-hard mask -/

theorem sqrt_apply {s : Shape} {φ : FTy} (a : FVec Ideal s φ) (i : s.Idx) : sqrt a i = Ideal.sqrt (a i) := rfl

/-- The clamped hardest-positive squared distance of row `r`, over the masks and distances of the block. -/
theorem pay6_apply (i : grid0.Coords) (x0 : Vec Ideal S512x1024 .bf16) (x1 : Vec Ideal S2048x1024 .bf16)
    (x2 : Vec Ideal S512x1 .i32) (x3 : Vec Ideal S1x2048 .i32) (r : Fin 512) (u : Fin 1) :
    k0_pay6 (F := Ideal) i x0 x1 x2 x3 (ix2 r u)
      = max (Finset.univ.fold max ⊥ (fun j : Fin 2048 =>
          Scalar.select (k0_pay4 (F := Ideal) i x2 x3 (ix2 r j)) (k0_pay2 (F := Ideal) x0 x1 (ix2 r j)) ⊥)) eps := by
  unfold k0_pay6
  refine (maximumf_apply _ _ _).trans ?_
  refine congrArg₂ max ?_ rfl
  refine (col_apply _ r u).trans ?_
  refine (rowmax_apply _ r).trans ?_
  refine congrArg (Finset.fold max ⊥ · Finset.univ) (funext fun j => ?_)
  exact congrArg (Scalar.select (k0_pay4 (F := Ideal) i x2 x3 (ix2 r j)) (k0_pay2 (F := Ideal) x0 x1 (ix2 r j))) negBig

/-- The semi-hard mask at `(r, j)`: a negative whose clamped squared distance exceeds the clamped hardest positive's. -/
theorem pay7_iff (i : grid0.Coords) (x0 : Vec Ideal S512x1024 .bf16) (x1 : Vec Ideal S2048x1024 .bf16)
    (x2 : Vec Ideal S512x1 .i32) (x3 : Vec Ideal S1x2048 .i32) (r : Fin 512) (j : Fin 2048) :
    k0_pay7 (F := Ideal) i x0 x1 x2 x3 (ix2 r j) = 1#1 ↔
      (k0_pay5 (F := Ideal) x2 x3 (ix2 r j) = 1#1
        ∧ k0_pay6 (F := Ideal) i x0 x1 x2 x3 (ix2 r (0 : Fin 1)) < max (k0_pay2 (F := Ideal) x0 x1 (ix2 r j)) eps) := by
  unfold k0_pay7
  refine (andi_iff _ _).trans (and_congr Iff.rfl ?_)
  refine (cmp_ogt_iff _ _).trans ?_
  exact Iff.of_eq (congrArg₂ (· < ·) (bcol_apply _ r j) (maximumf_apply _ _ _))

/-! ## The validity test -/

theorem bit_pos_iff (c : BitVec 1) : (0 : EReal) < Scalar.select c 1 0 ↔ c = 1#1 := by
  rcases BitVec.eq_zero_or_eq_one c with h | h <;> subst h
  · rw [select_zero]; simp
  · rw [select_one]; simp

/-- "Some lane of row `r` is set", as the body tests it: the maximum over the lanes of the 0/1 float is positive. -/
theorem any_iff (m : IVec S512x2048 1) (one zero zero' : Ideal .f32) (h1 : one = 1) (h0 : zero = 0) (h0' : zero' = 0)
    (r : Fin 512) (u : Fin 1) :
    shapeCast S512x1 (cmpf .ogt (multiReduction (F := Ideal) .maximumf [1] S512
        (select m (broadcast S512x2048 one) (broadcast S512x2048 zero)) 0xFF800000#32 reduces_S512x2048_S512 (.inl rfl) rfl)
        (broadcast S512 zero')) shapeCasts_S512_S512x1 (ix2 r u) = 1#1
      ↔ ∃ j : Fin 2048, m (ix2 r j) = 1#1 := by
  subst h1; subst h0; subst h0'
  refine (Iff.of_eq (congrArg (· = 1#1) (col_apply _ r u))).trans ?_
  refine (cmpf_ogt_iff _ _ _).trans ?_
  refine (Iff.of_eq (congrArg₂ (· < ·) (broadcast_apply (s := S512) (0 : EReal) (ix1 r)) (rowmax_apply _ r))).trans ?_
  refine (Finset.lt_fold_max _).trans ?_
  refine (or_iff_right (not_lt_bot (a := (0 : EReal)))).trans ?_
  refine exists_congr fun j => ?_
  refine (and_iff_right (Finset.mem_univ j)).trans ?_
  exact bit_pos_iff (m (ix2 r j))

/-- The validity bit of row `r`: each of the three masks has a set lane in the row. -/
theorem pay8_iff (m1 m2 m3 : IVec S512x2048 1) (r : Fin 512) (u : Fin 1) :
    k0_pay8 (F := Ideal) m1 m2 m3 (ix2 r u) = 1#1
      ↔ (∃ j : Fin 2048, m1 (ix2 r j) = 1#1) ∧ (∃ j : Fin 2048, m2 (ix2 r j) = 1#1) ∧ (∃ j : Fin 2048, m3 (ix2 r j) = 1#1) := by
  unfold k0_pay8
  refine (andi_iff _ _).trans ?_
  refine (and_congr ((andi_iff _ _).trans (and_congr
    (any_iff m1 _ _ _ ofBits_one Ideal.ofBits_zero_f32 Ideal.ofBits_zero_f32 r u)
    (any_iff m2 _ _ _ ofBits_one Ideal.ofBits_zero_f32 Ideal.ofBits_zero_f32 r u)))
    (any_iff m3 _ _ _ ofBits_one Ideal.ofBits_zero_f32 Ideal.ofBits_zero_f32 r u)).trans and_assoc

/-! ## The two totals over the block's rows -/

/-- The rows of a `[1, 512, 1]` vector are the `512` row numbers. -/
def rowEquiv : Fin 512 ≃ S1x512x1.Idx where
  toFun r := ix3 (0 : Fin 1) r (0 : Fin 1)
  invFun i := i 1
  left_inv _ := rfl
  right_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- The sum of a column `[512, 1]` over both axes of its `[1, 512, 1]` view, extracted as a scalar: the sum over the rows. -/
theorem total_apply (w : FVec Ideal S512x1 .f32) :
    extractAt ![0, 0, 0] (shapeCast S1x1x1 (multiReduction (F := Ideal) .add [1, 2] S1
        (shapeCast S1x512x1 w shapeCasts_S512x1_S1x512x1) 0x00000000#32 reduces_S1x512x1_S1 (.inl rfl) rfl)
        shapeCasts_S1_S1x1x1) inpos_S1x1x1_p0_0_0
      = ∑ r : Fin 512, w (ix2 r (0 : Fin 1)) := by
  show multiReduction (F := Ideal) .add [1, 2] S1 (shapeCast S1x512x1 w shapeCasts_S512x1_S1x512x1) 0x00000000#32
      reduces_S1x512x1_S1 (.inl rfl) rfl (Shape.reshapeEquiv _ _) = _
  refine (Ideal.multiReduction_add_total _ _ reduces_S1x512x1_S1
    (fun b => by match b with | ⟨0, _⟩ => rfl) (.inl rfl) rfl _).trans ?_
  refine (Equiv.sum_comp rowEquiv _).symm.trans ?_
  exact Finset.sum_congr rfl fun r _ => shapeCast_ab_1ab_apply w _ (0 : Fin 1) r (0 : Fin 1)

/-- The block's summed row losses, over abstract masks, distances and clamped hardest positives. -/
theorem pay9_eq (v10 : FVec Ideal S512x2048 .f32) (v26 v27 : IVec S512x2048 1) (v35 : FVec Ideal S512x1 .f32)
    (v38 : IVec S512x2048 1) (c : Ideal .f32) :
    k0_pay9 (F := Ideal) v10 v26 v27 v35 v38 c
      = ∑ r : Fin 512, Scalar.select (k0_pay8 (F := Ideal) v26 v27 v38 (ix2 r (0 : Fin 1)))
          (max (Ideal.sqrt (v35 (ix2 r (0 : Fin 1)))
            - Ideal.sqrt (max (Finset.univ.fold min ⊤ (fun j : Fin 2048 => Scalar.select (v38 (ix2 r j)) (v10 (ix2 r j)) c)) eps)
            + margin) 0) 0 := by
  unfold k0_pay9
  refine (total_apply _).trans ?_
  refine Finset.sum_congr rfl fun r _ => ?_
  refine (select_apply _ _ _ _).trans ?_
  refine congrArg₂ (Scalar.select (k0_pay8 (F := Ideal) v26 v27 v38 (ix2 r (0 : Fin 1)))) ?_ Ideal.ofBits_zero_f32
  refine (maximumf_apply _ _ _).trans ?_
  refine congrArg₂ max ?_ Ideal.ofBits_zero_f32
  refine (addf_apply _ _ _).trans ?_
  refine congrArg₂ (· + ·) ?_ rfl
  refine (subf_apply _ _ _).trans ?_
  refine congrArg₂ (· - ·) (sqrt_apply _ _) ?_
  refine (sqrt_apply _ _).trans (congrArg Ideal.sqrt ?_)
  refine (maximumf_apply _ _ _).trans ?_
  refine congrArg₂ max ?_ rfl
  refine (col_apply _ r (0 : Fin 1)).trans ?_
  refine (rowmin_apply _ r).trans ?_
  exact congrArg (Finset.fold min ⊤ · Finset.univ) (funext fun j => rfl)

theorem sitofp_bit (c : BitVec 1) : FloatOps.sitofp (F := Ideal) .f32 (c.setWidth 32) = Scalar.select c (1 : EReal) 0 := by
  rcases BitVec.eq_zero_or_eq_one c with h | h <;> subst h
  · rw [select_zero]; show (((BitVec.setWidth 32 0#1).toInt : ℝ) : EReal) = 0
    rw [show (BitVec.setWidth 32 0#1).toInt = 0 by decide]; simp
  · rw [select_one]; show (((BitVec.setWidth 32 1#1).toInt : ℝ) : EReal) = 1
    rw [show (BitVec.setWidth 32 1#1).toInt = 1 by decide]; simp

/-- Entry `(0, 0, 0)` of the packed block is the first scalar. -/
theorem pay1_sum (v65 : IVec S512x1 1) (v80 : Ideal .f32) :
    k0_pay1 (F := Ideal) v65 v80 (ix3 (0 : Fin 1) (0 : Fin 8) (0 : Fin 128)) = v80 := by
  unfold k0_pay1
  refine (shapeCast_ab_1ab_apply _ _ (0 : Fin 1) (0 : Fin 8) (0 : Fin 128)).trans ?_
  rfl

/-- Entry `(0, 0, 1)` of the packed block is the float count of the set validity bits. -/
theorem pay1_count (v65 : IVec S512x1 1) (v80 : Ideal .f32) :
    k0_pay1 (F := Ideal) v65 v80 (ix3 (0 : Fin 1) (0 : Fin 8) (1 : Fin 128))
      = ∑ r : Fin 512, Scalar.select (v65 (ix2 r (0 : Fin 1))) (1 : EReal) 0 := by
  unfold k0_pay1
  refine (shapeCast_ab_1ab_apply _ _ (0 : Fin 1) (0 : Fin 8) (1 : Fin 128)).trans ?_
  show extractAt ![0, 0, 0] (shapeCast S1x1x1 (multiReduction (F := Ideal) .add [1, 2] S1
        (shapeCast S1x512x1 (sitofp (F := Ideal) .f32 (extui 32 v65 natLt_1_32)) shapeCasts_S512x1_S1x512x1) 0x00000000#32 reduces_S1x512x1_S1 (.inl rfl) rfl)
        shapeCasts_S1_S1x1x1) inpos_S1x1x1_p0_0_0 = _
  rw [total_apply]
  exact Finset.sum_congr rfl fun r _ => sitofp_bit _

/-! ## The block's rows in the specification's terms -/

open Classical in
/-- The same with the `if` decided classically, as the specification's are. -/
theorem select_eq_ite' {α : Type} (c : BitVec 1) (P : Prop) (h : c = 1#1 ↔ P) (a b : α) :
    Scalar.select c a b = if P then a else b :=
  select_eq_ite c P h a b

/-- The squared distance at `(r, j)` is the specification's, of global row `512 t + r` and row `j`. -/
theorem sq_eq (t : Fin 4) (x0 : Vec Ideal S512x1024 .bf16) (x1 : Vec Ideal S2048x1024 .bf16)
    (e : Fin 2048 → Fin 1024 → EReal)
    (h0 : ∀ (r : Fin 512) (k : Fin 1024), x0 (ix2 r k) = e (blk t r) k)
    (h1 : ∀ (j : Fin 2048) (k : Fin 1024), x1 (ix2 j k) = e j k) (r : Fin 512) (j : Fin 2048) :
    k0_pay2 (F := Ideal) x0 x1 (ix2 r j) = sqOf e (blk t r) j := by
  rw [pay2_apply]
  unfold sqOf
  exact congrArg (fun s => max 0 (two - two * s)) (Finset.sum_congr rfl fun k _ => by rw [h0, h1])

theorem pos_iff (i : grid0.Coords) (t : Fin 4) (hi : (i 0).val = t.val) (x2 : Vec Ideal S512x1 .i32) (x3 : Vec Ideal S1x2048 .i32)
    (lab : Fin 2048 → BitVec 32) (h2 : ∀ r : Fin 512, x2 (ix2 r (0 : Fin 1)) = lab (blk t r))
    (h3 : ∀ j : Fin 2048, x3 (ix2 (0 : Fin 1) j) = lab j) (r : Fin 512) (j : Fin 2048) :
    k0_pay4 (F := Ideal) i x2 x3 (ix2 r j) = 1#1 ↔ pos lab (blk t r) j := by
  rw [pay4_iff i t hi, h2, h3]; exact Iff.rfl

theorem neg_iff (t : Fin 4) (x2 : Vec Ideal S512x1 .i32) (x3 : Vec Ideal S1x2048 .i32)
    (lab : Fin 2048 → BitVec 32) (h2 : ∀ r : Fin 512, x2 (ix2 r (0 : Fin 1)) = lab (blk t r))
    (h3 : ∀ j : Fin 2048, x3 (ix2 (0 : Fin 1) j) = lab j) (r : Fin 512) (j : Fin 2048) :
    k0_pay5 (F := Ideal) x2 x3 (ix2 r j) = 1#1 ↔ neg lab (blk t r) j := by
  rw [pay5_iff, h2, h3]; exact Iff.rfl

/-- The clamped hardest positive of row `r` is the specification's, clamped. -/
theorem hp_eq (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) (r : Fin 512) (u : Fin 1) :
    k0_pay6 (F := Ideal) i x0 x1 x2 x3 (ix2 r u) = max (hpSq (sqOf e) lab (blk t r)) eps := by
  rw [pay6_apply]
  unfold hpSq
  refine congrArg (max · eps) (congrArg (Finset.fold max ⊥ · Finset.univ) (funext fun j => ?_))
  rw [sq_eq t x0 x1 e h0 h1]
  exact select_eq_ite' _ _ (pos_iff i t hi x2 x3 lab h2 h3 r j) _ _

theorem semi_iff (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) (r : Fin 512) (j : Fin 2048) :
    k0_pay7 (F := Ideal) i x0 x1 x2 x3 (ix2 r j) = 1#1 ↔ semiK (sqOf e) lab (blk t r) j := by
  rw [pay7_iff, neg_iff t x2 x3 lab h2 h3, hp_eq i t hi x0 x1 x2 x3 e lab h0 h1 h2 h3, sq_eq t x0 x1 e h0 h1]
  exact Iff.rfl

/-- The nearest semi-hard negative of row `r` is the specification's. -/
theorem shn_eq (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) (r : Fin 512) :
    Finset.univ.fold min ⊤ (fun j : Fin 2048 =>
        Scalar.select (k0_pay7 (F := Ideal) i x0 x1 x2 x3 (ix2 r j)) (k0_pay2 (F := Ideal) x0 x1 (ix2 r j)) (⊤ : EReal))
      = shnSq (sqOf e) lab (blk t r) := by
  unfold shnSq
  refine congrArg (Finset.fold min ⊤ · Finset.univ) (funext fun j => ?_)
  rw [sq_eq t x0 x1 e h0 h1]
  exact select_eq_ite' _ _ (semi_iff i t hi x0 x1 x2 x3 e lab h0 h1 h2 h3 r j) _ _

/-- The validity bit of row `r` says the specification's validity of global row `512 t + r`. -/
theorem valid_iff (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) (r : Fin 512) (u : Fin 1) :
    k0_pay8 (F := Ideal) (k0_pay4 (F := Ideal) i x2 x3) (k0_pay5 (F := Ideal) x2 x3) (k0_pay7 (F := Ideal) i x0 x1 x2 x3) (ix2 r u) = 1#1
      ↔ validK (sqOf e) lab (blk t r) := by
  rw [pay8_iff]
  unfold validK
  exact and_congr (exists_congr fun j => pos_iff i t hi x2 x3 lab h2 h3 r j)
    (and_congr (exists_congr fun j => neg_iff t x2 x3 lab h2 h3 r j)
      (exists_congr fun j => semi_iff i t hi x0 x1 x2 x3 e lab h0 h1 h2 h3 r j))

/-- Entry (0, 0, 0) of the stored block: the block's summed row losses. -/
theorem tileOut_sum (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) :
    Cert.KernelIdeal.Fr.tileOut (F := Ideal) i x0 x1 x2 x3 (ix3 (0 : Fin 1) (0 : Fin 8) (0 : Fin 128))
      = ∑ r : Fin 512, rowLossK (sqOf e) lab (blk t r) := by
  unfold Cert.KernelIdeal.Fr.tileOut
  refine (pay1_sum _ _).trans ?_
  refine (pay9_eq _ _ _ _ _ _).trans ?_
  refine Finset.sum_congr rfl fun r _ => ?_
  rw [posBig, shn_eq i t hi x0 x1 x2 x3 e lab h0 h1 h2 h3 r, hp_eq i t hi x0 x1 x2 x3 e lab h0 h1 h2 h3 r (0 : Fin 1)]
  unfold rowLossK
  exact select_eq_ite' _ _ (valid_iff i t hi x0 x1 x2 x3 e lab h0 h1 h2 h3 r (0 : Fin 1)) _ _

/-- Entry (0, 0, 1) of the stored block: the block's count of valid rows, as a float. -/
theorem tileOut_count (i : grid0.Coords) (t : Fin 4) (hi : (i 0).val = t.val)
    (x0 : Vec Ideal S512x1024 .bf16) (x1 : Vec Ideal S2048x1024 .bf16) (x2 : Vec Ideal S512x1 .i32) (x3 : Vec Ideal S1x2048 .i32)
    (e : Fin 2048 → Fin 1024 → EReal) (lab : Fin 2048 → BitVec 32)
    (h0 : ∀ (r : Fin 512) (k : Fin 1024), x0 (ix2 r k) = e (blk t r) k)
    (h1 : ∀ (j : Fin 2048) (k : Fin 1024), x1 (ix2 j k) = e j k)
    (h2 : ∀ r : Fin 512, x2 (ix2 r (0 : Fin 1)) = lab (blk t r))
    (h3 : ∀ j : Fin 2048, x3 (ix2 (0 : Fin 1) j) = lab j) :
    Cert.KernelIdeal.Fr.tileOut (F := Ideal) i x0 x1 x2 x3 (ix3 (0 : Fin 1) (0 : Fin 8) (1 : Fin 128))
      = ∑ r : Fin 512, cntK (sqOf e) lab (blk t r) := by
  unfold Cert.KernelIdeal.Fr.tileOut
  refine (pay1_count _ _).trans ?_
  refine Finset.sum_congr rfl fun r _ => ?_
  unfold cntK
  exact select_eq_ite' _ _ (valid_iff i t hi x0 x1 x2 x3 e lab h0 h1 h2 h3 r (0 : Fin 1)) _ _

end Cert.KernelIdeal.Tile

end
-- ==== Proof.KIValue.lean ====
/-
  The idealized kernel program's result as a function of its two arguments: the batch loss mined on squared distances,
  block by block with a floating-point count (`Cert.Triplet.lossK`), of the squared distances of the row-normalized
  embeddings. Each block's entries (0, 0, 0) and (0, 0, 1) are its summed row losses and its count of valid rows; the host
  operations after the region add the four blocks up and divide.
-/
import proofs.«424136_j60825326846556_3_alg».proof.Proof.KIBlocks
import proofs.«424136_j60825326846556_3_alg».proof.Proof.KIHost
import proofs.«424136_j60825326846556_3_alg».proof.Proof.KITile

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Triplet
open scoped BigOperators

variable (m : (ℓ : Loc nD τ sig) → Buf (Elt Ideal) ℓ) (ρ : Dev nD → PrngReg)

/-- Block `t`'s first entry: its rows' summed losses. -/
theorem O_sum (c : Dev nD) (t : Fin 4) :
    W2 (F := Ideal) m ρ c (Proc.devRef .tc main_v11) (ix3 t (0 : Fin 8) (0 : Fin 128))
      = ∑ r : Fin 512, rowLossK (sqOf (normalize (argX m c))) (argL m c) (blk t r) := by
  rw [out_at]
  exact Cert.KernelIdeal.Tile.tileOut_sum (grid0.coords (pt t)) t (coords_pt t) _ _ _ _ (normalize (argX m c)) (argL m c)
    (fun r k => (iblk0_at m ρ c t r k).trans (V1_matrix m ρ c _ k))
    (fun j k => (iblk1_at m ρ c t j k).trans (V1_matrix m ρ c j k))
    (fun r => (iblk2_at m ρ c t r).trans (V1_rowLabels m ρ c _))
    (fun j => (iblk3_at m ρ c t j).trans (V1_colLabels m ρ c j))

/-- Block `t`'s second entry: its count of valid rows. -/
theorem O_count (c : Dev nD) (t : Fin 4) :
    W2 (F := Ideal) m ρ c (Proc.devRef .tc main_v11) (ix3 t (0 : Fin 8) (1 : Fin 128))
      = ∑ r : Fin 512, cntK (sqOf (normalize (argX m c))) (argL m c) (blk t r) := by
  rw [out_at]
  exact Cert.KernelIdeal.Tile.tileOut_count (grid0.coords (pt t)) t (coords_pt t) _ _ _ _ (normalize (argX m c)) (argL m c)
    (fun r k => (iblk0_at m ρ c t r k).trans (V1_matrix m ρ c _ k))
    (fun j k => (iblk1_at m ρ c t j k).trans (V1_matrix m ρ c j k))
    (fun r => (iblk2_at m ρ c t r).trans (V1_rowLabels m ρ c _))
    (fun j => (iblk3_at m ρ c t j).trans (V1_colLabels m ρ c j))

/-- The program's result. -/
theorem kernel_value (c : Dev nD) :
    W4 (F := Ideal) m ρ c (Proc.devRef .tc main_v21) = fun _ => lossK (sqOf (normalize (argX m c))) (argL m c) := by
  rw [W4_result]
  have hS : ((∑ t : Fin 4, W2 (F := Ideal) m ρ c (Proc.devRef .tc main_v11) (ix3 t (0 : Fin 8) (0 : Fin 128)) : EReal))
      = ∑ t : Fin 4, ∑ r : Fin 512, rowLossK (sqOf (normalize (argX m c))) (argL m c) (blk t r) :=
    Finset.sum_congr rfl fun t _ => O_sum m ρ c t
  have hC : ((∑ t : Fin 4, W2 (F := Ideal) m ρ c (Proc.devRef .tc main_v11) (ix3 t (0 : Fin 8) (1 : Fin 128)) : EReal))
      = ∑ t : Fin 4, ∑ r : Fin 512, cntK (sqOf (normalize (argX m c))) (argL m c) (blk t r) :=
    Finset.sum_congr rfl fun t _ => O_count m ρ c t
  funext _
  dsimp only
  rw [hS, hC]
  unfold lossK
  rfl

end Cert.KernelIdeal.Fr

end
-- ==== Proof.RefRun.lean ====
/-
  The reference program's run. Its @main is one line of 88 host operations (the functions jax outlined — the row
  norm, the clip, the three selections, the relu — standing in their calls' places): every weakly fair execution
  terminates with each buffer at the fold of the operations' results over the launch contents. The fold is read at the
  result in three stretches: the first 40 operations leave the distances and the two label masks; the next 24 the
  hardest positive, the nearest semi-hard negative and the validity mask; the last 24 the row losses, the count and the
  quotient. Each stretch is read from any contents holding the stretch before it at its stages, so that no stretch ever
  unfolds another.
-/
import proofs.«424136_j60825326846556_3_alg».proof.Proof.RefRead
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 88 operations, in order (a called function's operations stand in its call's place, spelt `TRef.…`). -/
abbrev ops : List (HloOp τ sig (Elt F)) :=
  [ TRef.binary (TRef.of (T := ⟨S2048x1024, .f32⟩) main_arg0) (TRef.of (T := ⟨S2048x1024, .f32⟩) main_arg0) (TRef.of (T := ⟨S2048x1024, .f32⟩) main_call0_v0) mulf,
    TRef.nullary (TRef.of (T := ⟨S_, .f32⟩) main_call0_cst) (constant S_ .f32 0x00000000#32),
    TRef.binary (TRef.of (T := ⟨S2048x1024, .f32⟩) main_call0_v0) (TRef.of (T := ⟨S_, .f32⟩) main_call0_cst) (TRef.of (T := ⟨S2048, .f32⟩) main_call0_v1) (fun x v => Host.reduceAdd x v reducesTo_S2048x1024_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    nullary main_cst (constant S_ .f32 0x2B8CBCCC#32),
    unary main_cst main_v1 (broadcastInDim S2048x1 ![] bcast_S_S2048x1 : (⟨S_, .f32⟩ : BufTy).Contents (Elt F) → (⟨S2048x1, .f32⟩ : BufTy).Contents (Elt F)),
    binary main_v0 main_v1 main_v2 (maximumf : (⟨S2048x1, .f32⟩ : BufTy).Contents (Elt F) → (⟨S2048x1, .f32⟩ : BufTy).Contents (Elt F) → (⟨S2048x1, .f32⟩ : BufTy).Contents (Elt F)),
    unary main_v2 main_v3 (broadcastInDim S2048x1024 ![0, 1] bcast_S2048x1_S2048x1024_0_1 : (⟨S2048x1, .f32⟩ : BufTy).Contents (Elt F) → (⟨S2048x1024, .f32⟩ : BufTy).Contents (Elt F)),
    binary main_arg0 main_v3 main_v4 (Host.divf : (⟨S2048x1024, .f32⟩ : BufTy).Contents (Elt F) → (⟨S2048x1024, .f32⟩ : BufTy).Contents (Elt F) → (⟨S2048x1024, .f32⟩ : BufTy).Contents (Elt F)),
    unary main_v4 main_v5 ((transpose S1024x2048 [1, 0] · transposes_S2048x1024_S1024x2048_1_0) : (⟨S2048x1024, .f32⟩ : BufTy).Contents (Elt F) → (⟨S1024x2048, .f32⟩ : BufTy).Contents (Elt F)),
    binary main_v4 main_v5 main_v6 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    nullary main_cst_0 (constant S_ .f32 0x40000000#32),
    unary main_cst_0 main_v7 (broadcastInDim S2048x2048 ![] bcast_S_S2048x2048 : (⟨S_, .f32⟩ : BufTy).Contents (Elt F) → (⟨S2048x2048, .f32⟩ : BufTy).Contents (Elt F)),
    binary main_v7 main_v6 main_v8 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x40000000#32),
    unary main_cst_1 main_v9 (broadcastInDim S2048x2048 ![] bcast_S_S2048x2048 : (⟨S_, .f32⟩ : BufTy).Contents (Elt F) → (⟨S2048x2048, .f32⟩ : BufTy).Contents (Elt F)),
    binary main_v9 main_v8 main_v10 (subf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S2048x2048, .f32⟩) main_call1_v1) (broadcastInDim S2048x2048 ![] bcast_S_S2048x2048),
    TRef.binary (TRef.of (T := ⟨S2048x2048, .f32⟩) main_call1_v1) (TRef.of (T := ⟨S2048x2048, .f32⟩) main_v10) (TRef.of (T := ⟨S2048x2048, .f32⟩) main_v11) maximumf,
    nullary main_cst_3 (constant S_ .f32 0x2B8CBCCC#32),
    unary main_cst_3 main_v12 (broadcastInDim S2048x2048 ![] bcast_S_S2048x2048 : (⟨S_, .f32⟩ : BufTy).Contents (Elt F) → (⟨S2048x2048, .f32⟩ : BufTy).Contents (Elt F)),
    binary main_v11 main_v12 main_v13 (maximumf : (⟨S2048x2048, .f32⟩ : BufTy).Contents (Elt F) → (⟨S2048x2048, .f32⟩ : BufTy).Contents (Elt F) → (⟨S2048x2048, .f32⟩ : BufTy).Contents (Elt F)),
    unary main_v13 main_v14 (Host.sqrt : (⟨S2048x2048, .f32⟩ : BufTy).Contents (Elt F) → (⟨S2048x2048, .f32⟩ : BufTy).Contents (Elt F)),
    unary main_arg1 main_v15 (broadcastInDim S2048x1 ![0] bcast_S2048_S2048x1_0 : (⟨S2048, .i32⟩ : BufTy).Contents (Elt F) → (⟨S2048x1, .i32⟩ : BufTy).Contents (Elt F)),
    unary main_arg1 main_v16 (broadcastInDim S1x2048 ![1] bcast_S2048_S1x2048_1 : (⟨S2048, .i32⟩ : BufTy).Contents (Elt F) → (⟨S1x2048, .i32⟩ : BufTy).Contents (Elt F)),
    unary main_v15 main_v17 (broadcastInDim S2048x2048 ![0, 1] bcast_S2048x1_S2048x2048_0_1 : (⟨S2048x1, .i32⟩ : BufTy).Contents (Elt F) → (⟨S2048x2048, .i32⟩ : BufTy).Contents (Elt F)),
    unary main_v16 main_v18 (broadcastInDim S2048x2048 ![0, 1] bcast_S1x2048_S2048x2048_0_1 : (⟨S1x2048, .i32⟩ : BufTy).Contents (Elt F) → (⟨S2048x2048, .i32⟩ : BufTy).Contents (Elt F)),
    binary main_v17 main_v18 main_v19 (cmpi .eq : (⟨S2048x2048, .i32⟩ : BufTy).Contents (Elt F) → (⟨S2048x2048, .i32⟩ : BufTy).Contents (Elt F) → (⟨S2048x2048, .i1⟩ : BufTy).Contents (Elt F)),
    nullary main_v20 (iotaInDim S2048x2048 32 0),
    nullary main_v21 (iotaInDim S2048x2048 32 1),
    nullary main_c (constantI S_ 32 0#32),
    unary main_c main_v22 (broadcastInDim S2048x2048 ![] bcast_S_S2048x2048 : (⟨S_, .i32⟩ : BufTy).Contents (Elt F) → (⟨S2048x2048, .i32⟩ : BufTy).Contents (Elt F)),
    binary main_v20 main_v22 main_v23 (addi : (⟨S2048x2048, .i32⟩ : BufTy).Contents (Elt F) → (⟨S2048x2048, .i32⟩ : BufTy).Contents (Elt F) → (⟨S2048x2048, .i32⟩ : BufTy).Contents (Elt F)),
    binary main_v23 main_v21 main_v24 (cmpi .eq : (⟨S2048x2048, .i32⟩ : BufTy).Contents (Elt F) → (⟨S2048x2048, .i32⟩ : BufTy).Contents (Elt F) → (⟨S2048x2048, .i1⟩ : BufTy).Contents (Elt F)),
    unary main_v24 main_v25 (noti : (⟨S2048x2048, .i1⟩ : BufTy).Contents (Elt F) → (⟨S2048x2048, .i1⟩ : BufTy).Contents (Elt F)),
    binary main_v19 main_v25 main_v26 (andi : (⟨S2048x2048, .i1⟩ : BufTy).Contents (Elt F) → (⟨S2048x2048, .i1⟩ : BufTy).Contents (Elt F) → (⟨S2048x2048, .i1⟩ : BufTy).Contents (Elt F)),
    unary main_v19 main_v27 (noti : (⟨S2048x2048, .i1⟩ : BufTy).Contents (Elt F) → (⟨S2048x2048, .i1⟩ : BufTy).Contents (Elt F)),
    nullary main_cst_4 (constant S_ .f32 0xFF800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S2048x2048, .f32⟩) main_call2_v1) (broadcastInDim S2048x2048 ![] bcast_S_S2048x2048),
    TRef.ternary (TRef.of (T := ⟨S2048x2048, .i1⟩) main_v26) (TRef.of (T := ⟨S2048x2048, .f32⟩) main_v14) (TRef.of (T := ⟨S2048x2048, .f32⟩) main_call2_v1) (TRef.of (T := ⟨S2048x2048, .f32⟩) main_v28) select,
    nullary main_cst_5 (constant S_ .f32 0xFF800000#32),
    binary main_v28 main_cst_5 main_v29 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v29 main_v30 (broadcastInDim S2048x1 ![0] bcast_S2048_S2048x1_0 : (⟨S2048, .f32⟩ : BufTy).Contents (Elt F) → (⟨S2048x1, .f32⟩ : BufTy).Contents (Elt F)),
    unary main_v30 main_v31 (broadcastInDim S2048x2048 ![0, 1] bcast_S2048x1_S2048x2048_0_1 : (⟨S2048x1, .f32⟩ : BufTy).Contents (Elt F) → (⟨S2048x2048, .f32⟩ : BufTy).Contents (Elt F)),
    binary main_v14 main_v31 main_v32 (cmpf .ogt : (⟨S2048x2048, .f32⟩ : BufTy).Contents (Elt F) → (⟨S2048x2048, .f32⟩ : BufTy).Contents (Elt F) → (⟨S2048x2048, .i1⟩ : BufTy).Contents (Elt F)),
    binary main_v27 main_v32 main_v33 (andi : (⟨S2048x2048, .i1⟩ : BufTy).Contents (Elt F) → (⟨S2048x2048, .i1⟩ : BufTy).Contents (Elt F) → (⟨S2048x2048, .i1⟩ : BufTy).Contents (Elt F)),
    nullary main_cst_6 (constant S_ .f32 0x7F800000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S2048x2048, .f32⟩) main_call3_v1) (broadcastInDim S2048x2048 ![] bcast_S_S2048x2048),
    TRef.ternary (TRef.of (T := ⟨S2048x2048, .i1⟩) main_v33) (TRef.of (T := ⟨S2048x2048, .f32⟩) main_v14) (TRef.of (T := ⟨S2048x2048, .f32⟩) main_call3_v1) (TRef.of (T := ⟨S2048x2048, .f32⟩) main_v34) select,
    nullary main_cst_7 (constant S_ .f32 0x7F800000#32),
    binary main_v34 main_cst_7 main_v35 ((fun x v => Host.reduce FloatOps.minimumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_c_8 (constantI S_ 1 0#1),
    binary main_v26 main_c_8 main_v36 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    nullary main_c_9 (constantI S_ 1 0#1),
    binary main_v27 main_c_9 main_v37 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    binary main_v36 main_v37 main_v38 (andi : (⟨S2048, .i1⟩ : BufTy).Contents (Elt F) → (⟨S2048, .i1⟩ : BufTy).Contents (Elt F) → (⟨S2048, .i1⟩ : BufTy).Contents (Elt F)),
    nullary main_c_10 (constantI S_ 1 0#1),
    binary main_v33 main_c_10 main_v39 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    binary main_v38 main_v39 main_v40 (andi : (⟨S2048, .i1⟩ : BufTy).Contents (Elt F) → (⟨S2048, .i1⟩ : BufTy).Contents (Elt F) → (⟨S2048, .i1⟩ : BufTy).Contents (Elt F)),
    binary main_v29 main_v35 main_v41 (subf : (⟨S2048, .f32⟩ : BufTy).Contents (Elt F) → (⟨S2048, .f32⟩ : BufTy).Contents (Elt F) → (⟨S2048, .f32⟩ : BufTy).Contents (Elt F)),
    nullary main_cst_11 (constant S_ .f32 0x3E99999A#32),
    unary main_cst_11 main_v42 (broadcastInDim S2048 ![] bcast_S_S2048 : (⟨S_, .f32⟩ : BufTy).Contents (Elt F) → (⟨S2048, .f32⟩ : BufTy).Contents (Elt F)),
    binary main_v41 main_v42 main_v43 (addf : (⟨S2048, .f32⟩ : BufTy).Contents (Elt F) → (⟨S2048, .f32⟩ : BufTy).Contents (Elt F) → (⟨S2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048, .f32⟩) main_call4_v0) (broadcastInDim S2048 ![] bcast_S_S2048),
    TRef.binary (TRef.of (T := ⟨S2048, .f32⟩) main_v43) (TRef.of (T := ⟨S2048, .f32⟩) main_call4_v0) (TRef.of (T := ⟨S2048, .f32⟩) main_v44) maximumf,
    nullary main_cst_12 (constant S_ .f32 0x00000000#32),
    TRef.unary (TRef.of (T := ⟨S_, .f32⟩) main_cst_12) (TRef.of (T := ⟨S_, .f32⟩) main_call5_v0) id,
    TRef.unary (TRef.of (T := ⟨S_, .f32⟩) main_call5_v0) (TRef.of (T := ⟨S2048, .f32⟩) main_call5_v1) (broadcastInDim S2048 ![] bcast_S_S2048),
    TRef.ternary (TRef.of (T := ⟨S2048, .i1⟩) main_v40) (TRef.of (T := ⟨S2048, .f32⟩) main_v44) (TRef.of (T := ⟨S2048, .f32⟩) main_call5_v1) (TRef.of (T := ⟨S2048, .f32⟩) main_v45) select,
    unary main_v40 main_v46 ((extui 32 · natLt_1_32) : (⟨S2048, .i1⟩ : BufTy).Contents (Elt F) → (⟨S2048, .i32⟩ : BufTy).Contents (Elt F)),
    nullary main_c_13 (constantI S_ 32 0#32),
    binary main_v46 main_c_13 main_v47 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_14 (constantI S_ 32 0#32),
    binary main_v47 main_c_14 main_v48 (cmpi .sgt : (⟨S_, .i32⟩ : BufTy).Contents (Elt F) → (⟨S_, .i32⟩ : BufTy).Contents (Elt F) → (⟨S_, .i1⟩ : BufTy).Contents (Elt F)),
    nullary main_cst_15 (constant S_ .f32 0x00000000#32),
    binary main_v45 main_cst_15 main_v49 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_c_16 (constantI S_ 32 1#32),
    binary main_v47 main_c_16 main_v50 (maxsi : (⟨S_, .i32⟩ : BufTy).Contents (Elt F) → (⟨S_, .i32⟩ : BufTy).Contents (Elt F) → (⟨S_, .i32⟩ : BufTy).Contents (Elt F)),
    unary main_v50 main_v51 (sitofp .f32 : (⟨S_, .i32⟩ : BufTy).Contents (Elt F) → (⟨S_, .f32⟩ : BufTy).Contents (Elt F)),
    binary main_v49 main_v51 main_v52 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.ternary (TRef.of (T := ⟨S_, .i1⟩) main_v48) (TRef.of (T := ⟨S_, .f32⟩) main_v52) (TRef.of (T := ⟨S_, .f32⟩) main_cst_17) (TRef.of (T := ⟨S_, .f32⟩) main_v53) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., nullary_bufs_sub .., unary_bufs_sub .., unary_bufs_sub .., ternary_bufs_sub .., nullary_bufs_sub .., binary_bufs_sub .., unary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., ternary_bufs_sub ..⟩

abbrev opsA : List (HloOp τ sig (Elt F)) :=
  [ TRef.binary (TRef.of (T := ⟨S2048x1024, .f32⟩) main_arg0) (TRef.of (T := ⟨S2048x1024, .f32⟩) main_arg0) (TRef.of (T := ⟨S2048x1024, .f32⟩) main_call0_v0) mulf,
    TRef.nullary (TRef.of (T := ⟨S_, .f32⟩) main_call0_cst) (constant S_ .f32 0x00000000#32),
    TRef.binary (TRef.of (T := ⟨S2048x1024, .f32⟩) main_call0_v0) (TRef.of (T := ⟨S_, .f32⟩) main_call0_cst) (TRef.of (T := ⟨S2048, .f32⟩) main_call0_v1) (fun x v => Host.reduceAdd x v reducesTo_S2048x1024_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    nullary main_cst (constant S_ .f32 0x2B8CBCCC#32),
    unary main_cst main_v1 (broadcastInDim S2048x1 ![] bcast_S_S2048x1 : (⟨S_, .f32⟩ : BufTy).Contents (Elt F) → (⟨S2048x1, .f32⟩ : BufTy).Contents (Elt F)),
    binary main_v0 main_v1 main_v2 (maximumf : (⟨S2048x1, .f32⟩ : BufTy).Contents (Elt F) → (⟨S2048x1, .f32⟩ : BufTy).Contents (Elt F) → (⟨S2048x1, .f32⟩ : BufTy).Contents (Elt F)),
    unary main_v2 main_v3 (broadcastInDim S2048x1024 ![0, 1] bcast_S2048x1_S2048x1024_0_1 : (⟨S2048x1, .f32⟩ : BufTy).Contents (Elt F) → (⟨S2048x1024, .f32⟩ : BufTy).Contents (Elt F)),
    binary main_arg0 main_v3 main_v4 (Host.divf : (⟨S2048x1024, .f32⟩ : BufTy).Contents (Elt F) → (⟨S2048x1024, .f32⟩ : BufTy).Contents (Elt F) → (⟨S2048x1024, .f32⟩ : BufTy).Contents (Elt F)),
    unary main_v4 main_v5 ((transpose S1024x2048 [1, 0] · transposes_S2048x1024_S1024x2048_1_0) : (⟨S2048x1024, .f32⟩ : BufTy).Contents (Elt F) → (⟨S1024x2048, .f32⟩ : BufTy).Contents (Elt F)),
    binary main_v4 main_v5 main_v6 ((fun l r => Host.dotGeneral dot_S2048x1024_S1024x2048_S2048x2048_1_0_0_1_n_n none l r) : (⟨S2048x1024, .f32⟩ : BufTy).Contents (Elt F) → (⟨S1024x2048, .f32⟩ : BufTy).Contents (Elt F) → (⟨S2048x2048, .f32⟩ : BufTy).Contents (Elt F)),
    nullary main_cst_0 (constant S_ .f32 0x40000000#32),
    unary main_cst_0 main_v7 (broadcastInDim S2048x2048 ![] bcast_S_S2048x2048 : (⟨S_, .f32⟩ : BufTy).Contents (Elt F) → (⟨S2048x2048, .f32⟩ : BufTy).Contents (Elt F)),
    binary main_v7 main_v6 main_v8 (mulf : (⟨S2048x2048, .f32⟩ : BufTy).Contents (Elt F) → (⟨S2048x2048, .f32⟩ : BufTy).Contents (Elt F) → (⟨S2048x2048, .f32⟩ : BufTy).Contents (Elt F)),
    nullary main_cst_1 (constant S_ .f32 0x40000000#32),
    unary main_cst_1 main_v9 (broadcastInDim S2048x2048 ![] bcast_S_S2048x2048 : (⟨S_, .f32⟩ : BufTy).Contents (Elt F) → (⟨S2048x2048, .f32⟩ : BufTy).Contents (Elt F)),
    binary main_v9 main_v8 main_v10 (subf : (⟨S2048x2048, .f32⟩ : BufTy).Contents (Elt F) → (⟨S2048x2048, .f32⟩ : BufTy).Contents (Elt F) → (⟨S2048x2048, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S2048x2048, .f32⟩) main_call1_v1) (broadcastInDim S2048x2048 ![] bcast_S_S2048x2048),
    TRef.binary (TRef.of (T := ⟨S2048x2048, .f32⟩) main_call1_v1) (TRef.of (T := ⟨S2048x2048, .f32⟩) main_v10) (TRef.of (T := ⟨S2048x2048, .f32⟩) main_v11) maximumf,
    nullary main_cst_3 (constant S_ .f32 0x2B8CBCCC#32),
    unary main_cst_3 main_v12 (broadcastInDim S2048x2048 ![] bcast_S_S2048x2048 : (⟨S_, .f32⟩ : BufTy).Contents (Elt F) → (⟨S2048x2048, .f32⟩ : BufTy).Contents (Elt F)),
    binary main_v11 main_v12 main_v13 (maximumf : (⟨S2048x2048, .f32⟩ : BufTy).Contents (Elt F) → (⟨S2048x2048, .f32⟩ : BufTy).Contents (Elt F) → (⟨S2048x2048, .f32⟩ : BufTy).Contents (Elt F)),
    unary main_v13 main_v14 (Host.sqrt : (⟨S2048x2048, .f32⟩ : BufTy).Contents (Elt F) → (⟨S2048x2048, .f32⟩ : BufTy).Contents (Elt F)),
    unary main_arg1 main_v15 (broadcastInDim S2048x1 ![0] bcast_S2048_S2048x1_0 : (⟨S2048, .i32⟩ : BufTy).Contents (Elt F) → (⟨S2048x1, .i32⟩ : BufTy).Contents (Elt F)),
    unary main_arg1 main_v16 (broadcastInDim S1x2048 ![1] bcast_S2048_S1x2048_1 : (⟨S2048, .i32⟩ : BufTy).Contents (Elt F) → (⟨S1x2048, .i32⟩ : BufTy).Contents (Elt F)),
    unary main_v15 main_v17 (broadcastInDim S2048x2048 ![0, 1] bcast_S2048x1_S2048x2048_0_1 : (⟨S2048x1, .i32⟩ : BufTy).Contents (Elt F) → (⟨S2048x2048, .i32⟩ : BufTy).Contents (Elt F)),
    unary main_v16 main_v18 (broadcastInDim S2048x2048 ![0, 1] bcast_S1x2048_S2048x2048_0_1 : (⟨S1x2048, .i32⟩ : BufTy).Contents (Elt F) → (⟨S2048x2048, .i32⟩ : BufTy).Contents (Elt F)),
    binary main_v17 main_v18 main_v19 (cmpi .eq : (⟨S2048x2048, .i32⟩ : BufTy).Contents (Elt F) → (⟨S2048x2048, .i32⟩ : BufTy).Contents (Elt F) → (⟨S2048x2048, .i1⟩ : BufTy).Contents (Elt F)),
    nullary main_v20 (iotaInDim S2048x2048 32 0),
    nullary main_v21 (iotaInDim S2048x2048 32 1),
    nullary main_c (constantI S_ 32 0#32),
    unary main_c main_v22 (broadcastInDim S2048x2048 ![] bcast_S_S2048x2048 : (⟨S_, .i32⟩ : BufTy).Contents (Elt F) → (⟨S2048x2048, .i32⟩ : BufTy).Contents (Elt F)),
    binary main_v20 main_v22 main_v23 (addi : (⟨S2048x2048, .i32⟩ : BufTy).Contents (Elt F) → (⟨S2048x2048, .i32⟩ : BufTy).Contents (Elt F) → (⟨S2048x2048, .i32⟩ : BufTy).Contents (Elt F)),
    binary main_v23 main_v21 main_v24 (cmpi .eq : (⟨S2048x2048, .i32⟩ : BufTy).Contents (Elt F) → (⟨S2048x2048, .i32⟩ : BufTy).Contents (Elt F) → (⟨S2048x2048, .i1⟩ : BufTy).Contents (Elt F)),
    unary main_v24 main_v25 (noti : (⟨S2048x2048, .i1⟩ : BufTy).Contents (Elt F) → (⟨S2048x2048, .i1⟩ : BufTy).Contents (Elt F)),
    binary main_v19 main_v25 main_v26 (andi : (⟨S2048x2048, .i1⟩ : BufTy).Contents (Elt F) → (⟨S2048x2048, .i1⟩ : BufTy).Contents (Elt F) → (⟨S2048x2048, .i1⟩ : BufTy).Contents (Elt F)),
    unary main_v19 main_v27 (noti : (⟨S2048x2048, .i1⟩ : BufTy).Contents (Elt F) → (⟨S2048x2048, .i1⟩ : BufTy).Contents (Elt F)) ]
abbrev opsB : List (HloOp τ sig (Elt F)) :=
  [ nullary main_cst_4 (constant S_ .f32 0xFF800000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S2048x2048, .f32⟩) main_call2_v1) (broadcastInDim S2048x2048 ![] bcast_S_S2048x2048),
    TRef.ternary (TRef.of (T := ⟨S2048x2048, .i1⟩) main_v26) (TRef.of (T := ⟨S2048x2048, .f32⟩) main_v14) (TRef.of (T := ⟨S2048x2048, .f32⟩) main_call2_v1) (TRef.of (T := ⟨S2048x2048, .f32⟩) main_v28) select,
    nullary main_cst_5 (constant S_ .f32 0xFF800000#32),
    binary main_v28 main_cst_5 main_v29 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v29 main_v30 (broadcastInDim S2048x1 ![0] bcast_S2048_S2048x1_0 : (⟨S2048, .f32⟩ : BufTy).Contents (Elt F) → (⟨S2048x1, .f32⟩ : BufTy).Contents (Elt F)),
    unary main_v30 main_v31 (broadcastInDim S2048x2048 ![0, 1] bcast_S2048x1_S2048x2048_0_1 : (⟨S2048x1, .f32⟩ : BufTy).Contents (Elt F) → (⟨S2048x2048, .f32⟩ : BufTy).Contents (Elt F)),
    binary main_v14 main_v31 main_v32 (cmpf .ogt : (⟨S2048x2048, .f32⟩ : BufTy).Contents (Elt F) → (⟨S2048x2048, .f32⟩ : BufTy).Contents (Elt F) → (⟨S2048x2048, .i1⟩ : BufTy).Contents (Elt F)),
    binary main_v27 main_v32 main_v33 (andi : (⟨S2048x2048, .i1⟩ : BufTy).Contents (Elt F) → (⟨S2048x2048, .i1⟩ : BufTy).Contents (Elt F) → (⟨S2048x2048, .i1⟩ : BufTy).Contents (Elt F)),
    nullary main_cst_6 (constant S_ .f32 0x7F800000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S2048x2048, .f32⟩) main_call3_v1) (broadcastInDim S2048x2048 ![] bcast_S_S2048x2048),
    TRef.ternary (TRef.of (T := ⟨S2048x2048, .i1⟩) main_v33) (TRef.of (T := ⟨S2048x2048, .f32⟩) main_v14) (TRef.of (T := ⟨S2048x2048, .f32⟩) main_call3_v1) (TRef.of (T := ⟨S2048x2048, .f32⟩) main_v34) select,
    nullary main_cst_7 (constant S_ .f32 0x7F800000#32),
    binary main_v34 main_cst_7 main_v35 ((fun x v => Host.reduce FloatOps.minimumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    nullary main_c_8 (constantI S_ 1 0#1),
    binary main_v26 main_c_8 main_v36 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    nullary main_c_9 (constantI S_ 1 0#1),
    binary main_v27 main_c_9 main_v37 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    binary main_v36 main_v37 main_v38 (andi : (⟨S2048, .i1⟩ : BufTy).Contents (Elt F) → (⟨S2048, .i1⟩ : BufTy).Contents (Elt F) → (⟨S2048, .i1⟩ : BufTy).Contents (Elt F)),
    nullary main_c_10 (constantI S_ 1 0#1),
    binary main_v33 main_c_10 main_v39 ((fun x v => Host.reduce IntOp.ori x v reducesTo_S2048x2048_S2048_d1 h_S_) : (⟨S2048x2048, .i1⟩ : BufTy).Contents (Elt F) → (⟨S_, .i1⟩ : BufTy).Contents (Elt F) → (⟨S2048, .i1⟩ : BufTy).Contents (Elt F)),
    binary main_v38 main_v39 main_v40 (andi : (⟨S2048, .i1⟩ : BufTy).Contents (Elt F) → (⟨S2048, .i1⟩ : BufTy).Contents (Elt F) → (⟨S2048, .i1⟩ : BufTy).Contents (Elt F)) ]
abbrev opsC : List (HloOp τ sig (Elt F)) :=
  [ binary main_v29 main_v35 main_v41 (subf : (⟨S2048, .f32⟩ : BufTy).Contents (Elt F) → (⟨S2048, .f32⟩ : BufTy).Contents (Elt F) → (⟨S2048, .f32⟩ : BufTy).Contents (Elt F)),
    nullary main_cst_11 (constant S_ .f32 0x3E99999A#32),
    unary main_cst_11 main_v42 (broadcastInDim S2048 ![] bcast_S_S2048 : (⟨S_, .f32⟩ : BufTy).Contents (Elt F) → (⟨S2048, .f32⟩ : BufTy).Contents (Elt F)),
    binary main_v41 main_v42 main_v43 (addf : (⟨S2048, .f32⟩ : BufTy).Contents (Elt F) → (⟨S2048, .f32⟩ : BufTy).Contents (Elt F) → (⟨S2048, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S2048, .f32⟩) main_call4_v0) (broadcastInDim S2048 ![] bcast_S_S2048),
    TRef.binary (TRef.of (T := ⟨S2048, .f32⟩) main_v43) (TRef.of (T := ⟨S2048, .f32⟩) main_call4_v0) (TRef.of (T := ⟨S2048, .f32⟩) main_v44) maximumf,
    nullary main_cst_12 (constant S_ .f32 0x00000000#32),
    TRef.unary (TRef.of (T := ⟨S_, .f32⟩) main_cst_12) (TRef.of (T := ⟨S_, .f32⟩) main_call5_v0) id,
    TRef.unary (TRef.of (T := ⟨S_, .f32⟩) main_call5_v0) (TRef.of (T := ⟨S2048, .f32⟩) main_call5_v1) (broadcastInDim S2048 ![] bcast_S_S2048),
    TRef.ternary (TRef.of (T := ⟨S2048, .i1⟩) main_v40) (TRef.of (T := ⟨S2048, .f32⟩) main_v44) (TRef.of (T := ⟨S2048, .f32⟩) main_call5_v1) (TRef.of (T := ⟨S2048, .f32⟩) main_v45) select,
    unary main_v40 main_v46 ((extui 32 · natLt_1_32) : (⟨S2048, .i1⟩ : BufTy).Contents (Elt F) → (⟨S2048, .i32⟩ : BufTy).Contents (Elt F)),
    nullary main_c_13 (constantI S_ 32 0#32),
    binary main_v46 main_c_13 main_v47 ((fun x v => Host.reduce IntOp.addi x v reducesTo_S2048_S_d0 h_S_) : (⟨S2048, .i32⟩ : BufTy).Contents (Elt F) → (⟨S_, .i32⟩ : BufTy).Contents (Elt F) → (⟨S_, .i32⟩ : BufTy).Contents (Elt F)),
    nullary main_c_14 (constantI S_ 32 0#32),
    binary main_v47 main_c_14 main_v48 (cmpi .sgt : (⟨S_, .i32⟩ : BufTy).Contents (Elt F) → (⟨S_, .i32⟩ : BufTy).Contents (Elt F) → (⟨S_, .i1⟩ : BufTy).Contents (Elt F)),
    nullary main_cst_15 (constant S_ .f32 0x00000000#32),
    binary main_v45 main_cst_15 main_v49 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_c_16 (constantI S_ 32 1#32),
    binary main_v47 main_c_16 main_v50 (maxsi : (⟨S_, .i32⟩ : BufTy).Contents (Elt F) → (⟨S_, .i32⟩ : BufTy).Contents (Elt F) → (⟨S_, .i32⟩ : BufTy).Contents (Elt F)),
    unary main_v50 main_v51 (sitofp .f32 : (⟨S_, .i32⟩ : BufTy).Contents (Elt F) → (⟨S_, .f32⟩ : BufTy).Contents (Elt F)),
    binary main_v49 main_v51 main_v52 (Host.divf : (⟨S_, .f32⟩ : BufTy).Contents (Elt F) → (⟨S_, .f32⟩ : BufTy).Contents (Elt F) → (⟨S_, .f32⟩ : BufTy).Contents (Elt F)),
    nullary main_cst_17 (constant S_ .f32 0x00000000#32),
    TRef.ternary (TRef.of (T := ⟨S_, .i1⟩) main_v48) (TRef.of (T := ⟨S_, .f32⟩) main_v52) (TRef.of (T := ⟨S_, .f32⟩) main_cst_17) (TRef.of (T := ⟨S_, .f32⟩) main_v53) select ]

/-- The operation list in three stretches: up to the distances and the two label masks; the mining up to the validity
    mask; the row losses and the final quotient. -/
theorem ops_split : (ops : List (HloOp τ sig (Elt F))) = opsA ++ (opsB ++ opsC) := rfl

set_option maxRecDepth 8192 in
theorem ops_fresh : (ops : List (HloOp τ sig (Elt F))).Forall fun op => op.fresh = ∅ := by
  simp only [List.Forall]; repeat' constructor

section Stretches

variable (V : Valuation τ sig (Elt F))
  (x0 : (⟨S2048x1024, .f32⟩ : BufTy).Contents (Elt F)) (x1 : (⟨S2048, .i32⟩ : BufTy).Contents (Elt F))

set_option maxHeartbeats 4000000 in
theorem A_v14 : after opsA V (Proc.devRef .tc main_v14) = ReadP.val_main_v14 (F := F) (V (Proc.devRef .tc main_arg0)) := by
  after_results_simp <;> (try simp only [TRef.ofBuf, TRef.toBuf, cast_eq]) <;> rfl
set_option maxHeartbeats 4000000 in
theorem A_v26 : after opsA V (Proc.devRef .tc main_v26) = ReadP.val_main_v26 (F := F) (V (Proc.devRef .tc main_arg1)) := by
  after_results_simp <;> (try simp only [TRef.ofBuf, TRef.toBuf, cast_eq]) <;> rfl
set_option maxHeartbeats 4000000 in
theorem A_v27 : after opsA V (Proc.devRef .tc main_v27) = ReadP.val_main_v27 (F := F) (V (Proc.devRef .tc main_arg1)) := by
  after_results_simp <;> (try simp only [TRef.ofBuf, TRef.toBuf, cast_eq]) <;> rfl

set_option maxHeartbeats 4000000 in
theorem B_v29 (h14 : V (Proc.devRef .tc main_v14) = ReadP.val_main_v14 (F := F) x0) (h26 : V (Proc.devRef .tc main_v26) = ReadP.val_main_v26 (F := F) x1) :
    after opsB V (Proc.devRef .tc main_v29) = ReadP.val_main_v29 (F := F) x0 x1 := by
  after_results_simp
  try simp only [TRef.ofBuf, TRef.toBuf, cast_eq]
  rw [h14, h26]; rfl
set_option maxHeartbeats 4000000 in
theorem B_v35 (h14 : V (Proc.devRef .tc main_v14) = ReadP.val_main_v14 (F := F) x0) (h26 : V (Proc.devRef .tc main_v26) = ReadP.val_main_v26 (F := F) x1)
    (h27 : V (Proc.devRef .tc main_v27) = ReadP.val_main_v27 (F := F) x1) :
    after opsB V (Proc.devRef .tc main_v35) = ReadP.val_main_v35 (F := F) x0 x1 := by
  after_results_simp
  try simp only [TRef.ofBuf, TRef.toBuf, cast_eq]
  rw [h14, h26, h27]; rfl
set_option maxHeartbeats 4000000 in
theorem B_v40 (h14 : V (Proc.devRef .tc main_v14) = ReadP.val_main_v14 (F := F) x0) (h26 : V (Proc.devRef .tc main_v26) = ReadP.val_main_v26 (F := F) x1)
    (h27 : V (Proc.devRef .tc main_v27) = ReadP.val_main_v27 (F := F) x1) :
    after opsB V (Proc.devRef .tc main_v40) = ReadP.val_main_v40 (F := F) x0 x1 := by
  after_results_simp
  try simp only [TRef.ofBuf, TRef.toBuf, cast_eq]
  rw [h14, h26, h27]; rfl

set_option maxHeartbeats 4000000 in
theorem C_v53 (h29 : V (Proc.devRef .tc main_v29) = ReadP.val_main_v29 (F := F) x0 x1) (h35 : V (Proc.devRef .tc main_v35) = ReadP.val_main_v35 (F := F) x0 x1)
    (h40 : V (Proc.devRef .tc main_v40) = ReadP.val_main_v40 (F := F) x0 x1) :
    after opsC V (Proc.devRef .tc main_v53) = ReadP.val_main_v53 (F := F) x0 x1 := by
  after_results_simp
  try simp only [TRef.ofBuf, TRef.toBuf, cast_eq]
  rw [h29, h35, h40]; rfl

end Stretches

/-- The whole line's result is the last stage. -/
theorem res_eq (m : (ℓ : Loc nD τ sig) → Buf (Elt F) ℓ) (c : Dev nD) :
    after (ops (F := F)) (launchContents m c) (Proc.devRef .tc main_v53)
      = ReadP.val_main_v53 (F := F) (m ((c.tc : Thread nD τ).loc main_arg0)) (m ((c.tc : Thread nD τ).loc main_arg1)) := by
  rw [ops_split, Idealize.ShloMosaic.StableHlo.after_append, Idealize.ShloMosaic.StableHlo.after_append]
  exact C_v53 _ _ _
    (B_v29 _ _ _ (A_v14 _) (A_v26 _))
    (B_v35 _ _ _ (A_v14 _) (A_v26 _) (A_v27 _))
    (B_v40 _ _ _ (A_v14 _) (A_v26 _) (A_v27 _))

set_option maxRecDepth 8192 in
set_option maxHeartbeats 4000000 in
/-- On every device, from any memory with zero counters: every weakly fair execution of @main terminates with the
    result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = ReadP.val_main_v53 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v53).trans (res_eq m c),
      (h c main_arg0).trans (by after_results_simp <;> (try simp only [TRef.ofBuf, TRef.toBuf, cast_eq]) <;> rfl),
      (h c main_arg1).trans (by after_results_simp <;> (try simp only [TRef.ofBuf, TRef.toBuf, cast_eq]) <;> rfl)⟩)
    (run_seq scopedRefs_eq scopedSems_eq defs main (fun _ => ops) main_eq (fun _ => ops_sub) m ρ
      (fun _ => List.forall_iff_forall_mem.mp ops_fresh))

end Cert.ReferenceIdeal.ValueP

end
-- ==== Proof.RefValue.lean ====
/-
  The reference program's result as a function of its two arguments: the batch loss mined on distances, all rows at
  once, counted in integers (`Cert.Triplet.lossR`), of the squared distances of the row-normalized embeddings.

  The program is read one stage at a time, each stage at explicit coordinates: the normalized rows, their Gram matrix
  and the clipped squared distances; the distances; the label masks as one-bit words; the hardest positive (a row
  maximum), the semi-hard mask, the nearest semi-hard negative (a row minimum) and the three "some column is set" bits;
  the row losses; and last the integer count of valid rows, whose word stays far below the sign bit, so that its
  signed comparison with zero, its signed maximum with one and its conversion to a float are those of the natural
  count.
-/
import proofs.«424136_j60825326846556_3_alg».proof.Proof.RefRead
import proofs.«424136_j60825326846556_3_alg».proof.Proof.Spec
import Idealize.ShloMosaic.Lib.ValueIdx
import Idealize.ShloMosaic.Lib.ValueIdxRank1
import Idealize.ShloMosaic.Lib.WordSum
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Words, bits and folds -/

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

theorem ofBool_eq_one_iff (b : Bool) : BitVec.ofBool b = 1#1 ↔ b = true := by cases b <;> decide

theorem cmpi_eq_iff (a b : BitVec 32) : IntOp.cmpi .eq a b = 1#1 ↔ a = b := by
  unfold IntOp.cmpi
  rw [ofBool_eq_one_iff]
  exact beq_iff_eq

theorem not_eq_one_iff (c : BitVec 1) : ~~~c = 1#1 ↔ ¬ c = 1#1 := by
  rcases BitVec.eq_zero_or_eq_one c with h | h <;> subst h <;> decide

theorem andi_eq_one_iff (a b : BitVec 1) : IntOp.andi a b = 1#1 ↔ a = 1#1 ∧ b = 1#1 := by
  rcases BitVec.eq_zero_or_eq_one a with h | h <;> subst h <;>
    rcases BitVec.eq_zero_or_eq_one b with h' | h' <;> subst h' <;> decide

theorem ori_eq_one_iff (a b : BitVec 1) : IntOp.ori a b = 1#1 ↔ a = 1#1 ∨ b = 1#1 := by
  rcases BitVec.eq_zero_or_eq_one a with h | h <;> subst h <;>
    rcases BitVec.eq_zero_or_eq_one b with h' | h' <;> subst h' <;> decide

theorem cmp_ogt_iff (a b : EReal) : Ideal.cmp .ogt a b = 1#1 ↔ b < a := by
  unfold Ideal.cmp
  rw [ofBool_eq_one_iff]
  exact decide_eq_true_iff

/-- The diagonal mask: two row numbers below 2048, as 32-bit words, are equal words exactly when they are equal. -/
theorem eye_iff (i j : Fin 2048) :
    IntOp.cmpi .eq (IntOp.addi (BitVec.ofNat 32 i.val) 0#32) (BitVec.ofNat 32 j.val) = 1#1 ↔ i = j := by
  rw [cmpi_eq_iff]
  unfold IntOp.addi
  rw [BitVec.add_zero]
  constructor
  · intro h
    have h' := congrArg BitVec.toNat h
    rw [BitVec.toNat_ofNat, BitVec.toNat_ofNat] at h'
    have hi := i.isLt
    have hj := j.isLt
    exact Fin.ext (by omega)
  · intro h; rw [h]

/-- An or-fold from 0 over a finite family of bits is 1 exactly when some bit is. -/
theorem fold_ori_eq_one_iff {ι : Type} [Fintype ι] (f : ι → BitVec 1) :
    (Finset.univ : Finset ι).fold IntOp.ori 0#1 f = 1#1 ↔ ∃ j, f j = 1#1 := by
  have key : ∀ s : Finset ι, s.fold IntOp.ori 0#1 f = 1#1 ↔ ∃ j ∈ s, f j = 1#1 := by
    intro s
    induction s using Finset.cons_induction with
    | empty => simp
    | cons a s ha ih =>
      rw [Finset.fold_cons, ori_eq_one_iff, ih]
      simp only [Finset.mem_cons, exists_eq_or_imp]
  rw [key]
  simp

/-- A one-axis reduction of a 2048 × 2048 array along its columns, at row `i`: the fold over the row's entries. -/
theorem reduce_row {α : Type} (f : α → α → α) [Std.Commutative f] [Std.Associative f] {u : Shape}
    (y : (⟨2, ![2048, 2048]⟩ : Shape).Idx → α) (init : u.Idx → α)
    (h' : (⟨2, ![2048, 2048]⟩ : Shape).ReducesTo [1] ⟨1, ![2048]⟩) (hu : 0 < u.numel) (i : Fin 2048) :
    Host.reduce f y init h' hu (ix1 i)
      = (Finset.univ : Finset (Fin 2048)).fold f (init (Shape.Idx.first hu)) (fun j => y (ix2 i j)) := by
  have h : (⟨2, ![2048, 2048]⟩ : Shape).Reduces [1] ⟨1, ![2048]⟩ := by decide
  refine (Host.reduce_eq_fold_single f y init h' h hu (ix1 i)).trans ?_
  have e : (y ∘ h.lift (ix1 i)) = fun j : Fin 2048 => y (ix2 i j) := by
    funext k
    show y (h.lift (ix1 i) k) = y (ix2 i k)
    refine congrArg y (funext fun c => Fin.ext ?_)
    match c with
    | ⟨0, _⟩ => rfl
    | ⟨1, _⟩ => rfl
  rw [e]
  rfl

/-- A fold of the word addition from zero is the sum of the words. -/
theorem fold_addi_eq_sum {ι : Type} (s : Finset ι) (f : ι → BitVec 32) :
    s.fold IntOp.addi 0#32 f = ∑ i ∈ s, f i := by
  induction s using Finset.cons_induction with
  | empty => rfl
  | cons a s ha ih =>
    rw [Finset.fold_cons, Finset.sum_cons, ih]; rfl

/-- A total reduction of a length-2048 array of words by addition from zero: the sum of the words. -/
theorem reduce_total_addi {u : Shape} (y : (⟨1, ![2048]⟩ : Shape).Idx → BitVec 32) (init : u.Idx → BitVec 32)
    (h' : (⟨1, ![2048]⟩ : Shape).ReducesTo [0] ⟨0, ![]⟩) (hu : 0 < u.numel)
    (hinit : init (Shape.Idx.first hu) = 0#32) (j : (⟨0, ![]⟩ : Shape).Idx) :
    Host.reduce IntOp.addi y init h' hu j = ∑ i : Fin 2048, y (ix1 i) := by
  rw [Host.reduce_eq_fold, hinit,
    Finset.filter_true_of_mem (fun i _ => funext fun b => b.elim0), fold_addi_eq_sum,
    ← Equiv.sum_comp (idxEquiv1 (n := 2048)).symm y]
  rfl

/-- A widened bit is 1 or 0. -/
theorem toNat_setWidth_bit (c : BitVec 1) : (c.setWidth 32).toNat = if c = 1#1 then 1 else 0 := by
  rcases BitVec.eq_zero_or_eq_one c with h | h <;> subst h <;> decide

/-- The sum of 2048 widened bits, as a word, is the number of set bits. -/
theorem toNat_sum_bits (c : Fin 2048 → BitVec 1) :
    (∑ i : Fin 2048, (c i).setWidth 32).toNat = (Finset.univ.filter fun i => c i = 1#1).card := by
  have hs : ∑ i : Fin 2048, ((c i).setWidth 32).toNat = (Finset.univ.filter fun i => c i = 1#1).card := by
    rw [Finset.card_filter]
    exact Finset.sum_congr rfl fun i _ => toNat_setWidth_bit (c i)
  have hle : (Finset.univ.filter fun i => c i = 1#1).card ≤ 2048 :=
    (Finset.card_filter_le _ _).trans (by simp)
  rw [WordSum.toNat_sum _ _ (by rw [hs]; omega), hs]

/-- A word whose value is a count `n ≤ 2048`: it is positive as a signed word exactly when `n` is, and its signed
    maximum with 1 has the value `max n 1`. -/
theorem count_word (W : BitVec 32) (n : ℕ) (hW : W.toNat = n) (hn : n ≤ 2048) :
    (IntOp.cmpi .sgt W 0#32 = 1#1 ↔ 0 < n) ∧ (IntOp.maxsi W 1#32).toInt = ((max n 1 : ℕ) : ℤ) := by
  have hWi : W.toInt = (n : ℤ) := by
    rw [BitVec.toInt_eq_toNat_cond, hW]
    have : 2 * n < 4294967296 := by omega
    simp [this]
  constructor
  · unfold IntOp.cmpi
    rw [ofBool_eq_one_iff, BitVec.slt_iff_toInt_lt, hWi]
    show ((0 : ℤ) < (n : ℤ)) ↔ 0 < n
    omega
  · unfold IntOp.maxsi
    split
    · next h =>
      rw [BitVec.slt_iff_toInt_lt, hWi] at h
      have h1 : (1#32 : BitVec 32).toInt = 1 := by decide
      rw [h1] at h
      rw [hWi]
      have : max n 1 = n := by omega
      rw [this]
    · next h =>
      rw [BitVec.slt_iff_toInt_lt, hWi] at h
      have h1 : (1#32 : BitVec 32).toInt = 1 := by decide
      rw [h1] at h ⊢
      have : max n 1 = 1 := by omega
      rw [this]; rfl

/-- The last select of the loss: on a count word of value `n ≤ 2048`, "positive ? S / float(max(count, 1)) : 0". -/
theorem select_count (W : BitVec 32) (n : ℕ) (hW : W.toNat = n) (hn : n ≤ 2048) (S : EReal) [Decidable (0 < n)] :
    Scalar.select (IntOp.cmpi .sgt W 0#32)
        (FloatOps.hostDivf (F := Ideal) (φ := .f32) S (FloatOps.sitofp (F := Ideal) .f32 (IntOp.maxsi W 1#32)))
        (FloatOps.ofBits (F := Ideal) .f32 0x00000000#32)
      = if 0 < n then Ideal.div S (((max n 1 : ℕ) : ℝ) : EReal) else 0 := by
  obtain ⟨h1, h2⟩ := count_word W n hW hn
  unfold Scalar.select
  refine if_congr h1 ?_ Ideal.ofBits_zero_f32
  show Ideal.div S (((IntOp.maxsi W 1#32).toInt : ℝ) : EReal) = _
  rw [h2, Int.cast_natCast]

/-- Two bits' conjunction with a third: the three-way conjunction. -/
theorem and3_iff (a b c : BitVec 1) : IntOp.andi (IntOp.andi a b) c = 1#1 ↔ a = 1#1 ∧ b = 1#1 ∧ c = 1#1 := by
  rw [andi_eq_one_iff, andi_eq_one_iff, and_assoc]

/-- Two conditionals with equivalent conditions and equal branches, whatever decides the conditions. -/
theorem ite_congr_inst {α : Type} {b c : Prop} {db : Decidable b} {dc : Decidable c} {x y u v : α}
    (h : b ↔ c) (ht : x = u) (he : y = v) : @ite α b db x y = @ite α c dc u v :=
  @if_congr α b c db dc x y u v h ht he

/-! ## The program, stage by stage -/

section Stages

variable (x : (⟨S2048x1024, .f32⟩ : BufTy).Contents (Elt Ideal)) (l : (⟨S2048, .i32⟩ : BufTy).Contents (Elt Ideal))

/-- The squared distances of the row-normalized embeddings. -/
abbrev sqv : Fin 2048 → Fin 2048 → EReal :=
  Cert.Triplet.sqOf (Cert.Triplet.normalize fun i k => x (ix2 i k))
/-- The labels by row number. -/
abbrev labv : Fin 2048 → BitVec 32 := fun i => l (ix1 i)

/-- The normalized rows: each entry over `max(√(∑ₖ x²), ε)` of its row. -/
theorem v4_eq (i : Fin 2048) (k : Fin 1024) :
    ReadP.val_main_v4 (F := Ideal) x (ix2 i k) = Cert.Triplet.normalize (fun i k => x (ix2 i k)) i k := by
  have e : ∀ k' : Fin 1024,
      ReadP.idx_main_call0_v1 (ReadP.idx_main_call0_v2 (ReadP.idx_main_v3 (ix2 i k))) k' = ix2 i k' := fun k' =>
    funext fun a => Fin.ext (by match a with | ⟨0, _⟩ => rfl | ⟨1, _⟩ => rfl)
  rw [ReadP.val_main_v4_apply, ReadP.val_main_v3_apply, ReadP.val_main_v2_apply, ReadP.val_main_v0_apply,
    ReadP.val_main_call0_v2_apply, ReadP.val_main_call0_v1_apply, ReadP.val_main_v1_apply, ReadP.val_main_cst_apply,
    ReadP.val_main_call0_cst_apply]
  simp only [ReadP.val_main_call0_v0_apply, e]
  show Ideal.div _ (max (Ideal.sqrt (Ideal.ofBits .f32 0x00000000#32 + _)) _) = _
  rw [Ideal.ofBits_zero_f32, zero_add]
  rfl

/-- The Gram matrix of the normalized rows. -/
theorem v6_eq (i j : Fin 2048) :
    ReadP.val_main_v6 (F := Ideal) x (ix2 i j)
      = ∑ k : Fin 1024, Cert.Triplet.normalize (fun i k => x (ix2 i k)) i k
          * Cert.Triplet.normalize (fun i k => x (ix2 i k)) j k := by
  rw [ReadP.val_main_v6_apply]
  refine Finset.sum_congr rfl fun k _ => ?_
  have el : ReadP.lidx_main_v6 (ix2 i j) k = ix2 i k :=
    funext fun a => Fin.ext (by match a with | ⟨0, _⟩ => rfl | ⟨1, _⟩ => rfl)
  have er : ReadP.idx_main_v5 (ReadP.ridx_main_v6 (ix2 i j) k) = ix2 j k :=
    funext fun a => Fin.ext (by match a with | ⟨0, _⟩ => rfl | ⟨1, _⟩ => rfl)
  rw [ReadP.val_main_v5_apply, el, er, v4_eq, v4_eq]

/-- The clipped squared distances `max(0, 2 − 2⟨eᵢ, eⱼ⟩)`. -/
theorem v11_eq (i j : Fin 2048) : ReadP.val_main_v11 (F := Ideal) x (ix2 i j) = sqv x i j := by
  rw [ReadP.val_main_v11_apply, ReadP.val_main_call1_v1_apply, ReadP.val_main_call1_v0_apply, ReadP.val_main_cst_2_apply,
    ReadP.val_main_v10_apply, ReadP.val_main_v9_apply, ReadP.val_main_cst_1_apply, ReadP.val_main_v8_apply,
    ReadP.val_main_v7_apply, ReadP.val_main_cst_0_apply, v6_eq]
  show max (Ideal.ofBits .f32 0x00000000#32) _ = _
  rw [Ideal.ofBits_zero_f32]
  rfl

/-- The distances `√(max(sq, ε))`. -/
theorem v14_eq (i j : Fin 2048) : ReadP.val_main_v14 (F := Ideal) x (ix2 i j) = Cert.Triplet.pd (sqv x) i j := by
  rw [ReadP.val_main_v14_apply, ReadP.val_main_v13_apply, ReadP.val_main_v12_apply, ReadP.val_main_cst_3_apply, v11_eq]
  rfl

/-- The same-label bit. -/
theorem v19_iff (i j : Fin 2048) : ReadP.val_main_v19 (F := Ideal) l (ix2 i j) = 1#1 ↔ labv l i = labv l j := by
  have e0 : ReadP.idx_main_v15 (ReadP.idx_main_v17 (ix2 i j)) = ix1 i :=
    funext fun a => Fin.ext (by match a with | ⟨0, _⟩ => rfl)
  have e1 : ReadP.idx_main_v16 (ReadP.idx_main_v18 (ix2 i j)) = ix1 j :=
    funext fun a => Fin.ext (by match a with | ⟨0, _⟩ => rfl)
  rw [ReadP.val_main_v19_apply, ReadP.val_main_v17_apply, ReadP.val_main_v15_apply, ReadP.val_main_v18_apply,
    ReadP.val_main_v16_apply, e0, e1, cmpi_eq_iff]

/-- The diagonal bit. -/
theorem v24_iff (i j : Fin 2048) : ReadP.val_main_v24 (F := Ideal) (ix2 i j) = 1#1 ↔ i = j := by
  rw [ReadP.val_main_v24_apply, ReadP.val_main_v23_apply, ReadP.val_main_v20_apply, ReadP.val_main_v22_apply,
    ReadP.val_main_c_apply, ReadP.val_main_v21_apply]
  exact eye_iff i j

/-- The positive mask: same label, another row. -/
theorem v26_iff (i j : Fin 2048) :
    ReadP.val_main_v26 (F := Ideal) l (ix2 i j) = 1#1 ↔ Cert.Triplet.pos (labv l) i j := by
  rw [ReadP.val_main_v26_apply, andi_eq_one_iff, ReadP.val_main_v25_apply, not_eq_one_iff, v19_iff, v24_iff]
  rfl

/-- The negative mask: another label. -/
theorem v27_iff (i j : Fin 2048) :
    ReadP.val_main_v27 (F := Ideal) l (ix2 i j) = 1#1 ↔ Cert.Triplet.neg (labv l) i j := by
  rw [ReadP.val_main_v27_apply, not_eq_one_iff, v19_iff]
  rfl

/-- The hardest positive: the row maximum of the distances over the positives, `⊥` elsewhere. -/
theorem v29_eq (i : Fin 2048) :
    ReadP.val_main_v29 (F := Ideal) x l (ix1 i) = Cert.Triplet.hpR (sqv x) (labv l) i := by
  unfold ReadP.val_main_v29
  refine (reduce_row FloatOps.maximumf _ _ _ _ i).trans ?_
  unfold Cert.Triplet.hpR
  rw [ReadP.val_main_cst_5_apply]
  show Finset.fold max (Ideal.ofBits .f32 0xFF800000#32) _ _ = _
  rw [ofBits_negInf]
  refine Finset.fold_congr fun j _ => ?_
  rw [ReadP.val_main_v28_apply, ReadP.val_main_call2_v1_apply, ReadP.val_main_call2_v0_apply,
    ReadP.val_main_cst_4_apply]
  exact ite_congr_inst (v26_iff l i j) (v14_eq x i j) ofBits_negInf

/-- The hardest positive broadcast along the row. -/
theorem v31_eq (i j : Fin 2048) :
    ReadP.val_main_v31 (F := Ideal) x l (ix2 i j) = Cert.Triplet.hpR (sqv x) (labv l) i := by
  have e : ReadP.idx_main_v30 (ReadP.idx_main_v31 (ix2 i j)) = ix1 i :=
    funext fun a => Fin.ext (by match a with | ⟨0, _⟩ => rfl)
  rw [ReadP.val_main_v31_apply, ReadP.val_main_v30_apply, e, v29_eq]

/-- The semi-hard mask: a negative farther than the hardest positive. -/
theorem v33_iff (i j : Fin 2048) :
    ReadP.val_main_v33 (F := Ideal) x l (ix2 i j) = 1#1 ↔ Cert.Triplet.semiR (sqv x) (labv l) i j := by
  rw [ReadP.val_main_v33_apply, andi_eq_one_iff, v27_iff, ReadP.val_main_v32_apply, v14_eq, v31_eq]
  exact and_congr Iff.rfl (cmp_ogt_iff _ _)

/-- The nearest semi-hard negative: the row minimum of the distances over the semi-hard negatives, `⊤` elsewhere. -/
theorem v35_eq (i : Fin 2048) :
    ReadP.val_main_v35 (F := Ideal) x l (ix1 i) = Cert.Triplet.shnR (sqv x) (labv l) i := by
  unfold ReadP.val_main_v35
  refine (reduce_row FloatOps.minimumf _ _ _ _ i).trans ?_
  unfold Cert.Triplet.shnR
  rw [ReadP.val_main_cst_7_apply]
  show Finset.fold min (Ideal.ofBits .f32 0x7F800000#32) _ _ = _
  rw [ofBits_posInf]
  refine Finset.fold_congr fun j _ => ?_
  rw [ReadP.val_main_v34_apply, ReadP.val_main_call3_v1_apply, ReadP.val_main_call3_v0_apply,
    ReadP.val_main_cst_6_apply]
  exact ite_congr_inst (v33_iff x l i j) (v14_eq x i j) ofBits_posInf

/-- The row has a positive. -/
theorem v36_iff (i : Fin 2048) :
    ReadP.val_main_v36 (F := Ideal) l (ix1 i) = 1#1 ↔ ∃ j, Cert.Triplet.pos (labv l) i j := by
  unfold ReadP.val_main_v36
  rw [reduce_row IntOp.ori _ _ _ _ i, ReadP.val_main_c_8_apply, fold_ori_eq_one_iff]
  exact exists_congr fun j => v26_iff l i j

/-- The row has a negative. -/
theorem v37_iff (i : Fin 2048) :
    ReadP.val_main_v37 (F := Ideal) l (ix1 i) = 1#1 ↔ ∃ j, Cert.Triplet.neg (labv l) i j := by
  unfold ReadP.val_main_v37
  rw [reduce_row IntOp.ori _ _ _ _ i, ReadP.val_main_c_9_apply, fold_ori_eq_one_iff]
  exact exists_congr fun j => v27_iff l i j

/-- The row has a semi-hard negative. -/
theorem v39_iff (i : Fin 2048) :
    ReadP.val_main_v39 (F := Ideal) x l (ix1 i) = 1#1 ↔ ∃ j, Cert.Triplet.semiR (sqv x) (labv l) i j := by
  unfold ReadP.val_main_v39
  rw [reduce_row IntOp.ori _ _ _ _ i, ReadP.val_main_c_10_apply, fold_ori_eq_one_iff]
  exact exists_congr fun j => v33_iff x l i j

/-- The row counts. -/
theorem v40_iff (i : Fin 2048) :
    ReadP.val_main_v40 (F := Ideal) x l (ix1 i) = 1#1 ↔ Cert.Triplet.validR (sqv x) (labv l) i := by
  rw [ReadP.val_main_v40_apply, ReadP.val_main_v38_apply, and3_iff, v36_iff, v37_iff, v39_iff]
  rfl

/-- The row's loss. -/
theorem v45_eq (i : Fin 2048) :
    ReadP.val_main_v45 (F := Ideal) x l (ix1 i) = Cert.Triplet.rowLossR (sqv x) (labv l) i := by
  rw [ReadP.val_main_v45_apply, ReadP.val_main_call5_v1_apply, ReadP.val_main_call5_v0_apply,
    ReadP.val_main_cst_12_apply, ReadP.val_main_v44_apply, ReadP.val_main_call4_v0_apply,
    ReadP.val_main_call4_cst_apply, ReadP.val_main_v43_apply, ReadP.val_main_v42_apply, ReadP.val_main_cst_11_apply,
    ReadP.val_main_v41_apply, v29_eq, v35_eq]
  unfold Cert.Triplet.rowLossR
  refine ite_congr_inst (v40_iff x l i) ?_ Ideal.ofBits_zero_f32
  show max _ (Ideal.ofBits .f32 0x00000000#32) = _
  rw [Ideal.ofBits_zero_f32]
  rfl

/-- The sum of the row losses. -/
theorem v49_eq (j : S_.Idx) :
    ReadP.val_main_v49 (F := Ideal) x l j = ∑ i : Fin 2048, Cert.Triplet.rowLossR (sqv x) (labv l) i := by
  rw [ReadP.val_main_v49_apply, ReadP.val_main_cst_15_apply]
  show Ideal.ofBits .f32 0x00000000#32 + _ = _
  rw [Ideal.ofBits_zero_f32, zero_add,
    ← Equiv.sum_comp (idxEquiv1 (n := 2048)).symm (ReadP.val_main_v45 (F := Ideal) x l)]
  exact Finset.sum_congr rfl fun i _ => v45_eq x l i

/-- The count word: the sum of the widened valid bits. -/
theorem v47_eq (j : S_.Idx) :
    ReadP.val_main_v47 (F := Ideal) x l j
      = ∑ i : Fin 2048, (ReadP.val_main_v40 (F := Ideal) x l (ix1 i)).setWidth 32 := by
  unfold ReadP.val_main_v47
  rw [reduce_total_addi _ _ _ _ (ReadP.val_main_c_13_apply _) j]
  exact Finset.sum_congr rfl fun i _ => ReadP.val_main_v46_apply x l (ix1 i)

/-- Its value is the number of valid rows. -/
theorem toNat_count [DecidablePred fun i => Cert.Triplet.validR (sqv x) (labv l) i] :
    (∑ i : Fin 2048, (ReadP.val_main_v40 (F := Ideal) x l (ix1 i)).setWidth 32).toNat
      = (Finset.univ.filter fun i => Cert.Triplet.validR (sqv x) (labv l) i).card := by
  rw [toNat_sum_bits]
  exact congrArg Finset.card (Finset.filter_congr fun i _ => v40_iff x l i)

end Stages

open Classical in
/-- The reference's result, at the extended reals, is the spec's `lossR` of its arguments read by coordinates. -/
theorem result_eq (x : (⟨S2048x1024, .f32⟩ : BufTy).Contents (Elt Ideal)) (l : (⟨S2048, .i32⟩ : BufTy).Contents (Elt Ideal)) :
    Cert.ReferenceIdeal.ReadP.val_main_v53 (F := Ideal) x l
      = fun _ => Cert.Triplet.lossR (Cert.Triplet.sqOf (Cert.Triplet.normalize fun i k => x (ix2 i k))) (fun i => l (ix1 i)) := by
  funext j
  rw [ReadP.val_main_v53_apply, ReadP.val_main_v52_apply, ReadP.val_main_v51_apply, ReadP.val_main_v50_apply,
    ReadP.val_main_v48_apply, ReadP.val_main_c_14_apply, ReadP.val_main_c_16_apply, ReadP.val_main_cst_17_apply,
    v49_eq, v47_eq]
  unfold Cert.Triplet.lossR
  refine select_count _ _ ?_ ?_ _
  · exact toNat_count x l
  · exact (Finset.card_filter_le _ _).trans (by simp)

end Cert.ReferenceIdeal.RefValue

end
-- ==== Proof.SpecLaws.lean ====
/-
  The two ways of mining a triplet row — on squared distances, or on distances — agree: `√(max · ε)` is monotone,
  strictly on `[ε, ⊤]`, so it commutes with a maximum or a minimum over a nonempty set of columns and preserves the
  strict comparison that selects the semi-hard negatives; a row without a positive or without a semi-hard negative
  contributes `0` either way. Summing four blocks of 512 rows is summing all 2048 rows, and the floating-point count
  of valid rows is the integer count.
-/
import proofs.«424136_j60825326846556_3_alg».proof.Proof.Spec
import Mathlib.Data.EReal.Basic
import Mathlib.Data.Finset.Fold
import Mathlib.Analysis.Real.Sqrt
import Mathlib.Logic.Equiv.Fin.Basic
import Mathlib.Data.Fintype.BigOperators
import Mathlib.Algebra.BigOperators.Group.Finset.Basic
import Mathlib.Algebra.BigOperators.Ring.Finset

noncomputable section

namespace Cert.Triplet

open Idealize.ShloMosaic
open scoped BigOperators

/-! ### The square root on the extended reals -/

/-- `√` is monotone on all of `[-∞, +∞]` (it sends every negative real and `⊥` to `⊥`). -/
theorem sqrt_mono {a b : EReal} (h : a ≤ b) : Ideal.sqrt a ≤ Ideal.sqrt b := by
  induction a using EReal.rec with
  | bot => simp
  | top => rw [top_le_iff] at h; subst h; exact le_rfl
  | coe r =>
    induction b using EReal.rec with
    | bot => simp at h
    | top => simp
    | coe s =>
      have h' : r ≤ s := EReal.coe_le_coe_iff.mp h
      simp only [Ideal.sqrt_coe]
      split_ifs with h1 h2 h2
      · exact le_rfl
      · exact bot_le
      · exfalso; linarith
      · exact EReal.coe_le_coe_iff.mpr (Real.sqrt_le_sqrt h')

/-- and strictly monotone on `[0, +∞]`. -/
theorem sqrt_lt_sqrt {a b : EReal} (ha : 0 ≤ a) (h : a < b) : Ideal.sqrt a < Ideal.sqrt b := by
  induction a using EReal.rec with
  | bot => simp at ha
  | top => simp at h
  | coe r =>
    have hr : 0 ≤ r := by exact_mod_cast ha
    induction b using EReal.rec with
    | bot => simp at h
    | top =>
      simp only [Ideal.sqrt_coe, Ideal.sqrt_top, if_neg (not_lt.mpr hr)]
      exact EReal.coe_lt_top _
    | coe s =>
      have h' : r < s := EReal.coe_lt_coe_iff.mp h
      simp only [Ideal.sqrt_coe, if_neg (not_lt.mpr hr), if_neg (not_lt.mpr (hr.trans h'.le))]
      exact EReal.coe_lt_coe_iff.mpr (Real.sqrt_lt_sqrt hr h')

/-- The clamp is a positive real. -/
theorem eps_pos : 0 < eps := by
  simp [eps, Ideal.ofBits, Ideal.ieee, -EReal.coe_mul]

/-- `x ↦ √(max x ε)` is monotone, -/
theorem clampSqrt_mono {a b : EReal} (h : a ≤ b) :
    Ideal.sqrt (max a eps) ≤ Ideal.sqrt (max b eps) :=
  sqrt_mono (max_le_max_right eps h)

/-- and it preserves and reflects strict comparisons of the clamped arguments, which all lie in `[ε, ⊤]`. -/
theorem clamp_lt_iff (a b : EReal) :
    max a eps < max b eps ↔ Ideal.sqrt (max a eps) < Ideal.sqrt (max b eps) := by
  constructor
  · intro h
    exact sqrt_lt_sqrt (eps_pos.le.trans (le_max_right a eps)) h
  · intro h
    by_contra hn
    exact absurd (sqrt_mono (not_lt.mp hn)) (not_le.mpr h)

/-! ### A monotone map commutes with a masked maximum or minimum over a nonempty mask -/

section Fold

variable {ι : Type*} (s : Finset ι) (P : ι → Prop) [DecidablePred P] (f : ι → EReal) (g : EReal → EReal)

/-- The maximum over the members of a nonempty mask, read through a monotone map. -/
theorem fold_max_mask_map (hg : Monotone g) (hP : ∃ j ∈ s, P j) :
    s.fold max ⊥ (fun j => if P j then g (f j) else ⊥)
      = g (s.fold max ⊥ (fun j => if P j then f j else ⊥)) := by
  obtain ⟨j₀, hj₀, hPj₀⟩ := hP
  apply le_antisymm
  · rw [Finset.fold_max_le]
    refine ⟨bot_le, fun j hj => ?_⟩
    by_cases hPj : P j
    · rw [if_pos hPj]
      apply hg
      rw [Finset.le_fold_max]
      exact Or.inr ⟨j, hj, by rw [if_pos hPj]⟩
    · rw [if_neg hPj]; exact bot_le
  · -- the maximum is attained at a member of the mask, or is `⊥`, which every member's value dominates
    have hbot : g ⊥ ≤ s.fold max ⊥ (fun j => if P j then g (f j) else ⊥) := by
      rw [Finset.le_fold_max]
      exact Or.inr ⟨j₀, hj₀, by rw [if_pos hPj₀]; exact hg bot_le⟩
    have hself := (Finset.le_fold_max (s := s) (b := (⊥ : EReal)) (f := fun j => if P j then f j else ⊥)
      (c := s.fold max ⊥ (fun j => if P j then f j else ⊥))).mp le_rfl
    rcases hself with h | ⟨j, hj, h⟩
    · exact (hg h).trans hbot
    · by_cases hPj : P j
      · rw [if_pos hPj] at h
        refine (hg h).trans ?_
        rw [Finset.le_fold_max]
        exact Or.inr ⟨j, hj, by rw [if_pos hPj]⟩
      · rw [if_neg hPj] at h
        exact (hg h).trans hbot

/-- The minimum over the members of a nonempty mask, read through a monotone map. -/
theorem fold_min_mask_map (hg : Monotone g) (hP : ∃ j ∈ s, P j) :
    s.fold min ⊤ (fun j => if P j then g (f j) else ⊤)
      = g (s.fold min ⊤ (fun j => if P j then f j else ⊤)) := by
  obtain ⟨j₀, hj₀, hPj₀⟩ := hP
  apply le_antisymm
  · have htop : s.fold min ⊤ (fun j => if P j then g (f j) else ⊤) ≤ g ⊤ := by
      rw [Finset.fold_min_le]
      exact Or.inr ⟨j₀, hj₀, by rw [if_pos hPj₀]; exact hg le_top⟩
    have hself := (Finset.fold_min_le (s := s) (b := (⊤ : EReal)) (f := fun j => if P j then f j else ⊤)
      (c := s.fold min ⊤ (fun j => if P j then f j else ⊤))).mp le_rfl
    rcases hself with h | ⟨j, hj, h⟩
    · exact htop.trans (hg h)
    · by_cases hPj : P j
      · rw [if_pos hPj] at h
        refine le_trans ?_ (hg h)
        rw [Finset.fold_min_le]
        exact Or.inr ⟨j, hj, by rw [if_pos hPj]⟩
      · rw [if_neg hPj] at h
        exact htop.trans (hg h)
  · rw [Finset.le_fold_min]
    refine ⟨le_top, fun j hj => ?_⟩
    by_cases hPj : P j
    · rw [if_pos hPj]
      apply hg
      rw [Finset.fold_min_le]
      exact Or.inr ⟨j, hj, by rw [if_pos hPj]⟩
    · rw [if_neg hPj]; exact le_top

end Fold

/-! ### Blocks and counts -/

/-- Four blocks of 512 rows are all 2048 rows: `(t, r) ↦ 512 t + r` is a bijection. -/
theorem sum_blk {M : Type*} [AddCommMonoid M] (f : Fin 2048 → M) :
    ∑ t : Fin 4, ∑ r : Fin 512, f (blk t r) = ∑ i : Fin 2048, f i := by
  rw [← Fintype.sum_prod_type']
  refine Fintype.sum_equiv (finProdFinEquiv : Fin 4 × Fin 512 ≃ Fin 2048) _ _ (fun p => ?_)
  congr 1
  apply Fin.ext
  simp only [blk, finProdFinEquiv, Equiv.coe_fn_mk]
  omega

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Counting the members of a set by adding `1` for each, in the extended reals, gives its cardinality. -/
theorem sum_ite_one {ι : Type*} (s : Finset ι) (P : ι → Prop) [DecidablePred P] :
    (∑ i ∈ s, (if P i then (1 : EReal) else 0)) = (((s.filter P).card : ℝ) : EReal) := by
  have h : ∀ i, (if P i then (1 : EReal) else 0) = ((if P i then (1 : ℝ) else 0 : ℝ) : EReal) := by
    intro i; split_ifs <;> simp
  simp only [h]
  rw [← coe_sum, Finset.sum_boole]

/-! ### One row -/

section Rows

variable (sq : Fin 2048 → Fin 2048 → EReal) (lab : Fin 2048 → BitVec 32)

theorem clampSqrt_monotone : Monotone (fun x : EReal => Ideal.sqrt (max x eps)) :=
  fun _ _ h => clampSqrt_mono h

open Classical in
/-- On a row with a positive, the hardest positive's distance is `√(max · ε)` of its squared distance. -/
theorem hpR_eq (i : Fin 2048) (hp : ∃ j, pos lab i j) :
    hpR sq lab i = Ideal.sqrt (max (hpSq sq lab i) eps) := by
  obtain ⟨j, hj⟩ := hp
  unfold hpR hpSq pd
  exact fold_max_mask_map Finset.univ (pos lab i) (sq i) (fun x => Ideal.sqrt (max x eps))
    clampSqrt_monotone ⟨j, Finset.mem_univ j, hj⟩

/-- so the two tests for a semi-hard negative select the same columns, -/
theorem semiK_iff_semiR (i : Fin 2048) (hp : ∃ j, pos lab i j) (j : Fin 2048) :
    semiK sq lab i j ↔ semiR sq lab i j := by
  unfold semiK semiR
  rw [hpR_eq sq lab i hp, pd, clamp_lt_iff]

open Classical in
/-- and on a row that also has one, the nearest one's distance is `√(max · ε)` of its squared distance. -/
theorem shnR_eq (i : Fin 2048) (hp : ∃ j, pos lab i j) (hs : ∃ j, semiK sq lab i j) :
    shnR sq lab i = Ideal.sqrt (max (shnSq sq lab i) eps) := by
  obtain ⟨j, hj⟩ := hs
  have hfun : (fun j => if semiR sq lab i j then pd sq i j else ⊤)
      = (fun j => if semiK sq lab i j then Ideal.sqrt (max (sq i j) eps) else ⊤) := by
    funext j
    by_cases h : semiK sq lab i j
    · rw [if_pos h, if_pos ((semiK_iff_semiR sq lab i hp j).mp h), pd]
    · rw [if_neg h, if_neg (fun h' => h ((semiK_iff_semiR sq lab i hp j).mpr h'))]
  unfold shnR shnSq
  rw [hfun]
  exact fold_min_mask_map Finset.univ (semiK sq lab i) (sq i) (fun x => Ideal.sqrt (max x eps))
    clampSqrt_monotone ⟨j, Finset.mem_univ j, hj⟩

/-- The two ways of mining count the same rows, -/
theorem validK_iff_validR (i : Fin 2048) : validK sq lab i ↔ validR sq lab i := by
  unfold validK validR
  constructor
  · rintro ⟨hp, hn, j, hj⟩
    exact ⟨hp, hn, j, (semiK_iff_semiR sq lab i hp j).mp hj⟩
  · rintro ⟨hp, hn, j, hj⟩
    exact ⟨hp, hn, j, (semiK_iff_semiR sq lab i hp j).mpr hj⟩

/-- give each row the same loss, -/
theorem rowLossK_eq_rowLossR (i : Fin 2048) : rowLossK sq lab i = rowLossR sq lab i := by
  unfold rowLossK rowLossR
  by_cases hv : validK sq lab i
  · rw [if_pos hv, if_pos ((validK_iff_validR sq lab i).mp hv),
      hpR_eq sq lab i hv.1, shnR_eq sq lab i hv.1 hv.2.2]
  · rw [if_neg hv, if_neg (fun h => hv ((validK_iff_validR sq lab i).mpr h))]

/-- and the same batch loss. -/
theorem lossK_eq_lossR : lossK sq lab = lossR sq lab := by
  classical
  have hfilter : (Finset.univ.filter fun i => validK sq lab i)
      = (Finset.univ.filter fun i => validR sq lab i) := by
    ext i
    simp only [Finset.mem_filter, Finset.mem_univ, true_and]
    exact validK_iff_validR sq lab i
  -- the floating-point count is the integer count
  have hC : ∑ t : Fin 4, ∑ r : Fin 512, cntK sq lab (blk t r)
      = ((((Finset.univ.filter fun i => validR sq lab i).card : ℕ) : ℝ) : EReal) := by
    rw [sum_blk (fun i => cntK sq lab i)]
    unfold cntK
    rw [sum_ite_one, hfilter]
  -- the four block sums of row losses are the sum over all rows
  have hS : ∑ t : Fin 4, ∑ r : Fin 512, rowLossK sq lab (blk t r) = ∑ i, rowLossR sq lab i := by
    rw [sum_blk (fun i => rowLossK sq lab i)]
    exact Finset.sum_congr rfl (fun i _ => rowLossK_eq_rowLossR sq lab i)
  unfold lossK lossR
  dsimp only
  rw [hC, hS]
  generalize (Finset.univ.filter fun i => validR sq lab i).card = n
  have hmax : max (((n : ℝ)) : EReal) 1 = (((max n 1 : ℕ) : ℝ) : EReal) := by
    rcases le_total n 1 with h | h
    · rw [max_eq_right h, max_eq_right (by exact_mod_cast h)]; simp
    · rw [max_eq_left h, max_eq_left (by exact_mod_cast h)]
  have hpos : (0 : EReal) < ((n : ℝ) : EReal) ↔ 0 < n := by
    rw [← EReal.coe_zero, EReal.coe_lt_coe_iff]; exact Nat.cast_pos
  rw [hmax]
  by_cases hn : 0 < n
  · rw [if_pos hn, if_pos (hpos.mpr hn)]
  · rw [if_neg hn, if_neg (fun h => hn (hpos.mp h))]

end Rows

end Cert.Triplet

end
-- ==== Proof.lean ====
/-
  Batch-hard triplet loss with semi-hard negative mining: a Pallas kernel that mines each block of 512 anchor rows on
  SQUARED distances (with finite stand-ins for the two infinities, read as the infinities) and emits per-block sums and
  floating-point counts that the host adds up, against a jnp reference that mines all 2048 rows on distances and counts
  in integers.

  At the extended reals both programs compute the same number. Both scale the embeddings row by row by
  `1 / max(‖x_i‖, ε)` with the same host operations, and a matrix product into a zero accumulator is the host's
  `dot_general`, so the squared distances `sq i j = max(0, 2 - 2 ⟨e_i, e_j⟩)` agree. The map `√(max · ε)` is monotone and
  strictly so on `[ε, ⊤]`: it commutes with the maximum over a row's positives and the minimum over its semi-hard
  negatives whenever those sets are nonempty, and it preserves the strict comparison that selects the semi-hard
  negatives; a row without a positive or a semi-hard negative counts for nothing on either side. Summing four blocks of
  512 rows is summing 2048 rows, and the float count of valid rows is the integer count (`Cert.Triplet.lossK_eq_lossR`).
  No finiteness of the inputs is needed.

  The kernel's pipeline reads ONE array, the normalized matrix, through two windows (the current 512 rows, and all of
  it): the frames of both kernel programs are proved against the launch theorem for segments of @main, the array's full
  share cut into halves for the two windows at the region's entry and joined at its exit.
-/
import proofs.«424136_j60825326846556_3_alg».proof.Defs
import proofs.«424136_j60825326846556_3_alg».proof.Proof.Gen.Kernel
import proofs.«424136_j60825326846556_3_alg».proof.Proof.Gen.KernelIdeal
import proofs.«424136_j60825326846556_3_alg».proof.Proof.Gen.ReferenceIdeal
import proofs.«424136_j60825326846556_3_alg».proof.Proof.Gen.Pre_finite_inputs
import proofs.«424136_j60825326846556_3_alg».proof.Proof.KFrame
import proofs.«424136_j60825326846556_3_alg».proof.Proof.KIValue
import proofs.«424136_j60825326846556_3_alg».proof.Proof.RefRun
import proofs.«424136_j60825326846556_3_alg».proof.Proof.RefValue
import proofs.«424136_j60825326846556_3_alg».proof.Proof.SpecLaws
import Idealize.ShloMosaic.PureOps.IdealRules
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two named stand-ins denote the two infinities at the extended reals. -/
theorem preserves : Cert.preserves_Kernel_KernelIdeal :=
  ⟨IdealRules.named_const.statement Cert.KernelIdeal.κ "neg_big" .f32 0xF149F2CA#32 ⊥ rfl,
   IdealRules.named_const.statement Cert.KernelIdeal.κ "pos_big" .f32 0x7149F2CA#32 ⊤ rfl⟩

/-- Both idealized programs end at the batch loss of the normalized embeddings' squared distances: the kernel's mined on
    squared distances block by block, the reference's on distances all rows at once — one number. -/
theorem algebraic : Cert.algebraic_KernelIdeal_ReferenceIdeal := by
  intro m ρ m' ρ' _ hagree
  refine ⟨fun c => fun _ => Cert.Triplet.lossK (Cert.Triplet.sqOf (Cert.Triplet.normalize (Cert.KernelIdeal.Fr.argX m c))) (Cert.KernelIdeal.Fr.argL m c), ?_, ?_⟩
  · exact (θ_run Cert.KernelIdeal.defs _ _).mono (fun _ h c =>
      ⟨(h c _ (Cert.KernelIdeal.Fr.mem_uc Cert.KernelIdeal.main_v21 (by decide))).trans (Cert.KernelIdeal.Fr.kernel_value m ρ c),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.ValueP.run (F := Ideal) m' ρ')
    rw [(hagree c).1, (hagree c).2, Cert.ReferenceIdeal.RefValue.result_eq]
    funext _
    exact (Cert.Triplet.lossK_eq_lossR _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
